-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16x4096 : Shape := ⟨2, ![16, 4096]⟩
abbrev S4096x16 : Shape := ⟨2, ![4096, 16]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S16x4096 .f32) (main_arg2 : FVec F S4096x16 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S16x4096 : Shape := ⟨2, ![16, 4096]⟩
abbrev S4096x16 : Shape := ⟨2, ![4096, 16]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S256x4096 : Shape := ⟨2, ![256, 4096]⟩
abbrev S256x16 : Shape := ⟨2, ![256, 16]⟩
abbrev S256x1 : Shape := ⟨2, ![256, 1]⟩
abbrev S1x256 : Shape := ⟨2, ![1, 256]⟩
abbrev S256 : Shape := ⟨1, ![256]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩
abbrev S512x1024 : Shape := ⟨2, ![512, 1024]⟩
abbrev S512x16 : Shape := ⟨2, ![512, 16]⟩
abbrev S16x1024 : Shape := ⟨2, ![16, 1024]⟩

abbrev nBuf : Space → Nat
  | .hbm => 8
  | .vmem => 23
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096x16, .f32⟩
  | .hbm, ⟨3, _⟩ => ⟨S4096x4096, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x16, .f32⟩
  | .local _ .vmem, ⟨3, _⟩ => ⟨S256x16, .f32⟩
  | .local _ .vmem, ⟨4, _⟩ => ⟨S16x4096, .f32⟩
  | .local _ .vmem, ⟨5, _⟩ => ⟨S256x1, .f32⟩
  | .local _ .vmem, ⟨6, _⟩ => ⟨S256x1, .f32⟩
  | .local _ .vmem, ⟨7, _⟩ => ⟨S1x256, .f32⟩
  | .local _ .vmem, ⟨8, _⟩ => ⟨S1x256, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S16x512, .f32⟩
  | .local _ .vmem, ⟨14, _⟩ => ⟨S16x512, .f32⟩
  | .local _ .vmem, ⟨15, _⟩ => ⟨S1024x16, .f32⟩
  | .local _ .vmem, ⟨16, _⟩ => ⟨S1024x16, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_15 : BitVec 32 := 0#32
  let v25 : BitVec 1 := Scalar.cmpi .ne v24 c0_i32_15
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1024x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4096_S4096x1 : S4096.ShapeCasts S4096x1
  inb_S256x16_S256x16_0_0 : ∀ a, (![0, 0] : Fin 2 → Nat) a + S256x16.size a ≤ S256x16.size a
  h_S256x16 : 0 < S256x16.numel
  inb_S16x4096_S16x4096_0_0 : ∀ a, (![0, 0] : Fin 2 → Nat) a + S16x4096.size a ≤ S16x4096.size a
  h_S16x4096 : 0 < S16x4096.numel
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  transposes_S1024x512_p1_0_S512x1024 : S1024x512.Transposes [1, 0] S512x1024
  transposes_S16x512_p1_0_S512x16 : S16x512.Transposes [1, 0] S512x16
  transposes_S1024x16_p1_0_S16x1024 : S1024x16.Transposes [1, 0] S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S256x16_S16x4096_S256x4096_1_0_0_1_n_n_wf : DotDims.WF S256x16 S16x4096 S256x4096 [1] [0] [0] [1] [] []
  dot_S1024x512_S512x1024_S1024x1024_1_0_0_1_n_n_wf : DotDims.WF S1024x512 S512x1024 S1024x1024 [1] [0] [0] [1] [] []
  dot_S1024x512_S512x16_S1024x16_1_0_0_1_n_n_wf : DotDims.WF S1024x512 S512x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S4096x16.size a
  hwx0_1 : ∀ i : grid0.Coords, EltTy.bits .f32 = 32 ∨ (Rect.block (s := S4096x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .f32 = 32 ∨ (Rect.block (s := S4096x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x4096.size a
  hwx1_2 : ∀ i : grid1.Coords, EltTy.bits .f32 = 32 ∨ (Rect.block (s := S16x4096) S16x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S4096x16.size a
  hwx1_3 : ∀ i : grid1.Coords, EltTy.bits .f32 = 32 ∨ (Rect.block (s := S4096x16) S1024x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x4096.size a
  hwx1_5 : ∀ i : grid1.Coords, EltTy.bits .f32 = 32 ∨ (Rect.block (s := S8192x4096) S1024x1024.size (cc1_transform_5 i) (hinb1_5 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_arg3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16x4096 : Shape := ⟨2, ![16, 4096]⟩
abbrev S4096x16 : Shape := ⟨2, ![4096, 16]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S8192x16 : Shape := ⟨2, ![8192, 16]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096x16, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S4096x16, .f32⟩
  | .hbm, ⟨17, _⟩ => ⟨S8192x16, .f32⟩
  | .hbm, ⟨18, _⟩ => ⟨S16x4096, .f32⟩
  | .hbm, ⟨19, _⟩ => ⟨S8192x4096, .f32⟩
  | .hbm, ⟨20, _⟩ => ⟨S4096x4096, .f32⟩
  | .hbm, ⟨21, _⟩ => ⟨S8192x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S1x4096_1 : S4096.BroadcastsInDim S1x4096 (![1] : Fin 1 → Fin S1x4096.rank)
  transposes_S16x4096_S4096x16_1_0 : S16x4096.Transposes [1, 0] S4096x16
  transposes_S4096x16_S16x4096_1_0 : S4096x16.Transposes [1, 0] S16x4096
  transposes_S4096x4096_S4096x4096_1_0 : S4096x4096.Transposes [1, 0] S4096x4096
  bcast_S_S1x4096 : S_.BroadcastsInDim S1x4096 (![] : Fin 0 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S4096x16_S16x4096_S4096x4096_1_0_0_1_n_n_wf : DotDims.WF S4096x16 S16x4096 S4096x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Norm.lean ====
/-
  The first kernel region (the weight-norm scale), at any float instance. At grid point t the body reads
  row block t of the base weight (256 × 4096), row block t of B (256 × 16), all of A (16 × 4096) and
  row block t of the magnitude column (256 × 1), and stores one whole 1 × 256 row into its output buffer:
  the row the pipeline writes back as columns 256·t … 256·t + 255 of the 1 × 4096 scale array. Nothing is
  kept between points, so the region's invariant is only "the other scoped buffers and the generator
  register, untouched".
-/
import proofs.«152894_j41712722379292_1_alg».proof.Proof.Gen.Kernel.Launch
import proofs.«152894_j41712722379292_1_alg».proof.Proof.Gen.Kernel.Skeleton
import proofs.«152894_j41712722379292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Norm

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or the block index has not moved since it was fetched. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole 1 × 256 output buffer, and each input buffer whole, as rectangles. -/
abbrev rOut0 : Rect S1x256 := Rect.unit (s := S1x256) ![0, 0] S1x256.size inb_S1x256_S1x256_0_0
abbrev rW0 : Rect S256x4096 := Rect.unit (s := S256x4096) ![0, 0] S256x4096.size inb_S256x4096_S256x4096_0_0
abbrev rB0 : Rect S256x16 := Rect.unit (s := S256x16) ![0, 0] S256x16.size inb_S256x16_S256x16_0_0
abbrev rA0 : Rect S16x4096 := Rect.unit (s := S16x4096) ![0, 0] S16x4096.size inb_S16x4096_S16x4096_0_0
abbrev rM0 : Rect S256x1 := Rect.unit (s := S256x1) ![0, 0] S256x1.size inb_S256x1_S256x1_0_0

/-- What the body leaves in the output buffer: its one store, of the scale row computed from the four input blocks
    (base-weight rows `xW`, B rows `xB`, all of A `xA`, magnitude rows `xM`). -/
def out0_4 (xW : Vec F S256x4096 .f32) (xB : Vec F S256x16 .f32) (xA : Vec F S16x4096 .f32) (xM : Vec F S256x1 .f32) : Vec F S1x256 .f32 :=
  View.canon [⟨rOut0, k0_pay1 (View.ld xB rB0) (View.ld xA rA0) (View.ld xW rW0) (View.ld xM rM0)⟩]

/-- The one store covers the buffer. -/
theorem cover0_4 (p0 : Vec F S1x256 .f32) (y : S1x256.Idx) :
    ∃ pc ∈ ([⟨rOut0, p0⟩] : List (View.Piece (Elt F) S1x256 .f32)), y ∈ pc.1.set :=
  View.cover_of_tiled [⟨rOut0, p0⟩] S1x256.size (by rfl) y

set_option maxHeartbeats 1000000 in
/-- The body on whole staging buffers, the inputs' at given contents and the output's at anything, runs to the
    continuation holding the inputs' as they were and the output's at `out0_4` of them. -/
theorem sound_kernel0 (c : Dev nD) (E : Set ℕ) (i : grid0.Coords)
    (arg1 : Memref sig .tc .vmem S256x4096 .f32) (harg1 : arg1.IsWhole) (arg2 : Memref sig .tc .vmem S256x16 .f32) (harg2 : arg2.IsWhole)
    (arg3 : Memref sig .tc .vmem S16x4096 .f32) (harg3 : arg3.IsWhole) (arg4 : Memref sig .tc .vmem S256x1 .f32) (harg4 : arg4.IsWhole)
    (arg5 : Memref sig .tc .vmem S1x256 .f32) (harg5 : arg5.IsWhole)
    (xW : Vec F S256x4096 .f32) (xB : Vec F S256x16 .f32) (xA : Vec F S16x4096 .f32) (xM : Vec F S256x1 .f32) (K : PUnit → sProp 𝕄) :
    iprop(owns (c : Thread nD τ) arg1 fullShare xW ∗ owns (c : Thread nD τ) arg2 fullShare xB ∗ owns (c : Thread nD τ) arg3 fullShare xA
        ∗ owns (c : Thread nD τ) arg4 fullShare xM ∗ (∃ d, owns (c : Thread nD τ) arg5 fullShare d)
        ∗ (iprop(owns (c : Thread nD τ) arg1 fullShare xW ∗ owns (c : Thread nD τ) arg2 fullShare xB ∗ owns (c : Thread nD τ) arg3 fullShare xA
            ∗ owns (c : Thread nD τ) arg4 fullShare xM ∗ owns (c : Thread nD τ) arg5 fullShare (out0_4 xW xB xA xM)) -∗ K ⟨⟩))
      ⊢ wp frame (wpE (defs₀ (F := F)) Variants.none c none) E (cc0__norm_kernel i arg1 harg1 arg2 harg2 arg3 harg3 arg4 harg4 arg5 harg5) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_4 (F := F) _)

/-- The proof data of the region on core `c`: the arrays as the region finds them; after the body at point `t`
    each input's buffer at its block and the output's at `out0_4` of the input blocks; the invariant "the other scoped
    buffers and the generator register"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Norm

end Cert.Kernel.Hand

end
-- ==== Proof.K.MainRuns.lean ====
/-
  The second kernel region (the fused dense and low-rank product), what its three control cases share. The grid
  is 8 × 4 × 8, the last coordinate k walking the eight 512-column blocks of the contraction. At k = 0 the body
  resets its two accumulators (a 1024 × 1024 one for x·Wᵀ and a 1024 × 16 one for x·Aᵀ), at every k it adds the
  block's partial products into them, and at k = 7 it combines them with the scale row and stores the 1024 × 1024
  output block; elsewhere the output window is idle and is not written back.
-/
import proofs.«152894_j41712722379292_1_alg».proof.Proof.Gen.Kernel.Launch
import proofs.«152894_j41712722379292_1_alg».proof.Proof.Gen.Kernel.Skeleton
import proofs.«152894_j41712722379292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Main

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, in closed form over the grid -/

/-- "k = 0": the accumulators are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the output block is computed and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from k = 7 the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At k = 7 it is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The two accumulators: whole scoped buffers of the kernel's own. -/
abbrev scM1_0 : Memref sig .tc .vmem S1024x1024 .f32 := Memref.whole cc1_scratch0
abbrev scM1_1 : Memref sig .tc .vmem S1024x16 .f32 := Memref.whole cc1_scratch1
/-- Views through which the output block's and the accumulators' contents are stated. -/
abbrev VO1_5 : View sig .tc .vmem S1024x1024 .f32 := (Memref.whole cc1_stg5_0 : Memref sig .tc .vmem S1024x1024 .f32).view
abbrev VS1_0 : View sig .tc .vmem S1024x1024 .f32 := scM1_0.view
abbrev VS1_1 : View sig .tc .vmem S1024x16 .f32 := scM1_1.view
/-- The whole-buffer rectangles of the three stored shapes. -/
abbrev rBig : Rect S1024x1024 := Rect.unit (s := S1024x1024) ![0, 0] S1024x1024.size inb_S1024x1024_S1024x1024_0_0
abbrev rLow : Rect S1024x16 := Rect.unit (s := S1024x16) ![0, 0] S1024x16.size inb_S1024x16_S1024x16_0_0

/-- The scoped buffers of the core that are neither a staging buffer of this region nor one of its accumulators
    (the first region's staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region's plain invariant with the two accumulators split out as memrefs owned at some contents. -/
theorem PhiA1_eq (c : Dev nD) :
    (Pipeline.ΦA spec1 c : sProp 𝕄)
      = iprop(others1 (F := F) c ∗ (∃ d, owns (c : Thread nD τ) scM1_0 fullShare d) ∗ (∃ d, owns (c : Thread nD τ) scM1_1 fullShare d) ∗ (∃ r, prngReg c r)) := by
  unfold Pipeline.ΦA others1; rw [scopedRest1_eq]; simp only [scM1_0, scM1_1, owns_whole]
  have h1 : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ ∃ r, prngReg c r) : sProp 𝕄) ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ ∃ r, prngReg c r) := by
    iintro ⟨⟨H1, H2, H3, H4, H5, H6, H7, H8, H9, HS0, HS1⟩, Hg⟩
    isplitl [H1 H2 H3 H4 H5 H6 H7 H8 H9]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS0]; · iexact HS0
    isplitl [HS1]; · iexact HS1
    iexact Hg
  have h2 : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ ∃ r, prngReg c r) : sProp 𝕄) ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ ∃ r, prngReg c r) := by
    iintro ⟨⟨H1, H2, H3, H4, H5, H6, H7, H8, H9⟩, HS0, HS1, Hg⟩
    isplitr [Hg]
    swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iexact HS1
  exact BI.Entails.antisymm h1 h2

end Main

end Cert.Kernel.Hand

end
-- ==== Proof.K.MainRunA.lean ====
/-
  The second kernel region, control case A (k = 0): both accumulators are reset to zero and the first block's partial products are added; the output window is idle.
-/
import proofs.«152894_j41712722379292_1_alg».proof.Proof.K.MainRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the two accumulators at k = 0, as pieces (last store first), with the proof that on
    whole memrefs — the inputs' at their contents, the idle output's at contents handed back untouched, the accumulators'
    at anything — the body runs to the continuation holding everything else as it was and each accumulator with its
    pieces written. The pieces are found by the run itself. -/
noncomputable def kernelRun1_A (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i)
    (x0 : Vec F S1024x512 .f32) (x1 : Vec F S1024x512 .f32) (x2 : Vec F S16x512 .f32) :
    Σ' (LS0 : List (View.Piece (Elt F) S1024x1024 .f32)), { LS1 : List (View.Piece (Elt F) S1024x16 .f32) //
      ∀ (x3 : Vec F S1024x16 .f32) (x4 : Vec F S1x1024 .f32) (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, fun x3 x4 xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Hand

end
-- ==== Proof.K.MainRunB.lean ====
/-
  The second kernel region, control case B (0 < k < 7): the block's partial products are added into both accumulators, which hold what the point before left; the output window is idle.
-/
import proofs.«152894_j41712722379292_1_alg».proof.Proof.K.MainRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The same away from both ends: the accumulators are entered at given contents `xs0`, `xs1`. -/
noncomputable def kernelRun1_B (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i)
    (x0 : Vec F S1024x512 .f32) (x1 : Vec F S1024x512 .f32) (x2 : Vec F S16x512 .f32)
    (xs0 : Vec F S1024x1024 .f32) (xs1 : Vec F S1024x16 .f32) :
    Σ' (LS0 : List (View.Piece (Elt F) S1024x1024 .f32)), { LS1 : List (View.Piece (Elt F) S1024x16 .f32) //
      ∀ (x3 : Vec F S1024x16 .f32) (x4 : Vec F S1x1024 .f32) (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, fun x3 x4 xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Hand

end
-- ==== Proof.K.MainRunC.lean ====
/-
  The second kernel region, control case C (k = 7): the last block's partial products are added, and the output block is computed from the accumulators, the B block and the scale row, and stored whole.
-/
import proofs.«152894_j41712722379292_1_alg».proof.Proof.K.MainRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At k = 7 the output buffer is stored too: its pieces `L5` beside the accumulators'. -/
noncomputable def kernelRun1_C (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i)
    (x0 : Vec F S1024x512 .f32) (x1 : Vec F S1024x512 .f32) (x2 : Vec F S16x512 .f32) (x3 : Vec F S1024x16 .f32) (x4 : Vec F S1x1024 .f32)
    (xs0 : Vec F S1024x1024 .f32) (xs1 : Vec F S1024x16 .f32) :
    Σ' (L5 : List (View.Piece (Elt F) S1024x1024 .f32)), Σ' (LS0 : List (View.Piece (Elt F) S1024x1024 .f32)), { LS1 : List (View.Piece (Elt F) S1024x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.Kernel.Hand

end
-- ==== Proof.K.MainBody.lean ====
/-
  The second kernel region: what its buffers hold point by point, and the body obligation. The two accumulators are
  the kernel's own scoped buffers, so the region's invariant carries them: before the first point at anything,
  after point n at what the recursion below says that point left. The output block is stored at k = 7 only, from
  the accumulators as the eight points of its (i, j) left them; at the other points the output window is idle.
-/
import proofs.«152894_j41712722379292_1_alg».proof.Proof.K.MainRunA
import proofs.«152894_j41712722379292_1_alg».proof.Proof.K.MainRunB
import proofs.«152894_j41712722379292_1_alg».proof.Proof.K.MainRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves, read back through its pieces -/

/-- At k = 0 the stores into the 1024 × 1024 accumulator cover it; what they leave. -/
theorem scover1_A_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i) (x0 : Vec F S1024x512 .f32) (x1 : Vec F S1024x512 .f32) (x2 : Vec F S16x512 .f32) (y : S1024x1024.Idx) :
    ∃ pc ∈ (kernelRun1_A c i arg3 harg3 arg4 harg4 arg5 harg5 arg6 harg6 arg7 harg7 arg8 harg8 arg9 harg9 arg10 harg10 hc0 hc1 x0 x1 x2).1, y ∈ pc.1.set :=
  View.cover_of_tiledL (kernelRun1_A c i arg3 harg3 arg4 harg4 arg5 harg5 arg6 harg6 arg7 harg7 arg8 harg8 arg9 harg9 arg10 harg10 hc0 hc1 x0 x1 x2).1 S1024x1024.size (by sl_kernel_rfl) y
def sout1_A_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i) (x0 : Vec F S1024x512 .f32) (x1 : Vec F S1024x512 .f32) (x2 : Vec F S16x512 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2).1)

/-- At k = 0 the stores into the 1024 × 16 accumulator cover it; what they leave. -/
theorem scover1_A_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i) (x0 : Vec F S1024x512 .f32) (x1 : Vec F S1024x512 .f32) (x2 : Vec F S16x512 .f32) (y : S1024x16.Idx) :
    ∃ pc ∈ (kernelRun1_A c i arg3 harg3 arg4 harg4 arg5 harg5 arg6 harg6 arg7 harg7 arg8 harg8 arg9 harg9 arg10 harg10 hc0 hc1 x0 x1 x2).2.1, y ∈ pc.1.set :=
  View.cover_of_tiledL (kernelRun1_A c i arg3 harg3 arg4 harg4 arg5 harg5 arg6 harg6 arg7 harg7 arg8 harg8 arg9 harg9 arg10 harg10 hc0 hc1 x0 x1 x2).2.1 S1024x16.size (by sl_kernel_rfl) y
def sout1_A_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i) (x0 : Vec F S1024x512 .f32) (x1 : Vec F S1024x512 .f32) (x2 : Vec F S16x512 .f32) : Vec F S1024x16 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2).2.1)

/-- For 0 < k < 7, the same for the 1024 × 1024 accumulator. -/
theorem scover1_B_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i) (x0 : Vec F S1024x512 .f32) (x1 : Vec F S1024x512 .f32) (x2 : Vec F S16x512 .f32) (xs0 : Vec F S1024x1024 .f32) (xs1 : Vec F S1024x16 .f32) (y : S1024x1024.Idx) :
    ∃ pc ∈ (kernelRun1_B c i arg3 harg3 arg4 harg4 arg5 harg5 arg6 harg6 arg7 harg7 arg8 harg8 arg9 harg9 arg10 harg10 hc0 hc1 x0 x1 x2 xs0 xs1).1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1).1 S1024x1024.size (by sl_kernel_rfl) y
def sout1_B_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i) (x0 : Vec F S1024x512 .f32) (x1 : Vec F S1024x512 .f32) (x2 : Vec F S16x512 .f32) (xs0 : Vec F S1024x1024 .f32) (xs1 : Vec F S1024x16 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 xs0 xs1).1)

/-- For 0 < k < 7, the same for the 1024 × 16 accumulator. -/
theorem scover1_B_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i) (x0 : Vec F S1024x512 .f32) (x1 : Vec F S1024x512 .f32) (x2 : Vec F S16x512 .f32) (xs0 : Vec F S1024x1024 .f32) (xs1 : Vec F S1024x16 .f32) (y : S1024x16.Idx) :
    ∃ pc ∈ (kernelRun1_B c i arg3 harg3 arg4 harg4 arg5 harg5 arg6 harg6 arg7 harg7 arg8 harg8 arg9 harg9 arg10 harg10 hc0 hc1 x0 x1 x2 xs0 xs1).2.1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1).2.1 S1024x16.size (by sl_kernel_rfl) y
def sout1_B_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i) (x0 : Vec F S1024x512 .f32) (x1 : Vec F S1024x512 .f32) (x2 : Vec F S16x512 .f32) (xs0 : Vec F S1024x1024 .f32) (xs1 : Vec F S1024x16 .f32) : Vec F S1024x16 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 xs0 xs1).2.1)

/-- At k = 7 the one store into the output buffer covers it; what it leaves. -/
theorem cover1_C_5 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0 xs1).1 S1024x1024.size (by sl_kernel_rfl) y
def out1_C_5 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 arg10 harg10 hc0 hc1 x0 x1 x2 x3 x4 xs0 xs1).1)
/-- At k = 7, the 1024 × 1024 accumulator. -/
theorem scover1_C_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0 xs1).2.1 S1024x1024.size (by sl_kernel_rfl) y
def sout1_C_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 xs0 xs1).2.1)

/-- At k = 7, the 1024 × 16 accumulator. -/
theorem scover1_C_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) (y : S1024x16.Idx) :
    ∃ pc ∈ (kernelRun1_C c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0 xs1).2.2.1 S1024x16.size (by sl_kernel_rfl) y
def sout1_C_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) : Vec F S1024x16 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 x3 x4 xs0 xs1).2.2.1)

/-- A placeholder for the output block's buffer at the points where the window is idle: nothing reads it. -/
def junk5 : Vec F S1024x1024 .f32 := VO1_5.read (Elt F) VO1_5.junk

section Body

variable (V : (c : Dev nD) → (b : Ref sig .tc) → Buf (Elt F) ((c : Thread nD τ).loc b))

/-! ## What the buffers hold after each point -/

/-- After the body at position `n`: the output block's buffer, the 1024 × 1024 accumulator, the 1024 × 16 accumulator.
    The case is decided by n mod 8; away from k = 0 the accumulators are entered at what position n − 1 left. -/
def outsAt1 (c : Dev nD) : (n : ℕ) → n < cfg1.N → Vec F S1024x1024 .f32 × Vec F S1024x1024 .f32 × Vec F S1024x16 .f32
  | 0, hn => (junk5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (junk5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (junk5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 8 = 0) (h1 : ¬t.val % 8 = 7) :
    outsAt1 V c t.val t.isLt = (junk5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (junk5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulators -/

/-- Before position `n`: before the first point the plain invariant (every scoped buffer that is no staging buffer at
    anything, the generator register at some state); afterwards the same with each accumulator at what position
    n − 1 left in it. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2.1)
      ∗ owns (c : Thread nD τ) scM1_1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((outsAt1 V c n hn).2.1)
      ∗ owns (c : Thread nD τ) scM1_1 fullShare ((outsAt1 V c n hn).2.2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2.1)
      ∗ owns (c : Thread nD τ) scM1_1 fullShare ((outsAt1 V c (n - 1) (by omega)).2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input window's buffer is handed back at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in
/-- The body at any point. n mod 8 says which case the point is in; the invariant hands the body the accumulators
    (at anything before the first point, else at what the point before left) and takes them back at this point's
    contents; the inputs' buffers hold their blocks and come back untouched; the output's buffer comes back untouched
    where the window is idle and at the stored block at k = 7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 256 := lt_of_lt_of_eq t.isLt (show cfg1.N = 256 from N_1)
  by_cases h0 : t.val % 8 = 0
  · by_cases h1 : t.val % 8 = 7
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨Hoth, HS0, HS1, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)).2.2 (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨Hoth, HS0, HS1, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)).2.2 (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1; (try dsimp only)
      rw [PhiS1_castSucc V c t, PhiS1_pos V c _ _ hz]
      iintro ⟨⟨Hoth, HS0, HS1, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [Hoth HS0 HS1 Hg]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨Hoth, HS0, HS1, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) _ _).2.2 (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hoth HS0 HS1 Hg]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hoth, HS0, HS1, Hg⟩
  isplitl [Hoth]; · iexact Hoth
  isplitl [HS0]; · iexists _; iexact HS0
  isplitl [HS1]; · iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Body

end Cert.Kernel.Hand

end
-- ==== Proof.K.Run.lean ====
/-
  The whole program's run, at any float instance. @main is: one host operation (the magnitude reshaped to a
  column), the first kernel region, the second kernel region. Between two of these a core holds every unscoped
  buffer at a valuation: the launch memory; then the reshape's result added; then the first region's output array
  (the scale row) at what its sixteen write-backs leave; then the second region's output array at what its
  thirty-two write-backs leave. The run's post reads the last valuation at the result and at the five arguments.
-/
import proofs.«152894_j41712722379292_1_alg».proof.Proof.K.Norm
import proofs.«152894_j41712722379292_1_alg».proof.Proof.K.MainBody
import proofs.«152894_j41712722379292_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wl0 : Dev nD → Valuation τ sig (Elt F) := fun c b => m (c, b)
/-- After the host reshape (the first region's entry). -/
abbrev Wl1 : Dev nD → Valuation τ sig (Elt F) := fun c => StableHlo.after hostOps0 (Wl0 m c)
abbrev Vr1 : (c : Dev nD) → (b : Ref sig .tc) → Buf (Elt F) ((c : Thread nD τ).loc b) := fun c b => Wl1 m c b
/-- At the first region's exit: its arrays at what the pipeline leaves, every other buffer as entered. -/
def Wl2 (c : Dev nD) : Valuation τ sig (Elt F) :=
  Pipeline.withArrays spec0 c (Wl1 m c) fun w => (dat0 (Vr1 m) c).arrAt w cfg0.N
theorem Wl2_arr (c : Dev nD) (w : Fin cfg0.W) :
    Wl2 m c (Proc.devRef .tc (Pipeline.arrRef spec0 w)) = (dat0 (Vr1 m) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m c (Proc.devRef .tc b) = Wl1 m c (Proc.devRef .tc b) := by
  unfold Wl2; exact Pipeline.withArrays_of_ne spec0 c _ _ b hb
abbrev Vr2 : (c : Dev nD) → (b : Ref sig .tc) → Buf (Elt F) ((c : Thread nD τ).loc b) := fun c b => Wl2 m c b
theorem hF0 (c : Dev nD) (w : Fin cfg0.W) : (dat0 (Vr1 m) c).arrAt w cfg0.N = Vr2 m c (Pipeline.arrRef spec0 w) :=
  (Wl2_arr m c w).symm
theorem hrest0 (c : Dev nD) : ∀ b, b ∉ Finset.univ.image (Pipeline.arrRef spec0) → Vr2 m c b = Vr1 m c b :=
  fun b hb => Wl2_of_ne m c b fun w e => hb (Finset.mem_image.mpr ⟨w, Finset.mem_univ _, e⟩)
/-- At the second region's exit. -/
def Wl3 (c : Dev nD) : Valuation τ sig (Elt F) :=
  Pipeline.withArrays spec1 c (Wl2 m c) fun w => (dat1 (Vr2 m) c).arrAt w cfg1.N
theorem Wl3_arr (c : Dev nD) (w : Fin cfg1.W) :
    Wl3 m c (Proc.devRef .tc (Pipeline.arrRef spec1 w)) = (dat1 (Vr2 m) c).arrAt w cfg1.N := by
  unfold Wl3; exact Pipeline.withArrays_arr spec1 launch1.win.arr_inj c _ _ w
theorem Wl3_of_ne (c : Dev nD) (b : Ref sig .tc) (hb : ∀ w, Pipeline.arrRef spec1 w ≠ b) :
    Wl3 m c (Proc.devRef .tc b) = Wl2 m c (Proc.devRef .tc b) := by
  unfold Wl3; exact Pipeline.withArrays_of_ne spec1 c _ _ b hb
abbrev Vr3 : (c : Dev nD) → (b : Ref sig .tc) → Buf (Elt F) ((c : Thread nD τ).loc b) := fun c b => Wl3 m c b
theorem hF1 (c : Dev nD) (w : Fin cfg1.W) : (dat1 (Vr2 m) c).arrAt w cfg1.N = Vr3 m c (Pipeline.arrRef spec1 w) :=
  (Wl3_arr m c w).symm
theorem hrest1 (c : Dev nD) : ∀ b, b ∉ Finset.univ.image (Pipeline.arrRef spec1) → Vr3 m c b = Vr2 m c b :=
  fun b hb => Wl3_of_ne m c b fun w e => hb (Finset.mem_image.mpr ⟨w, Finset.mem_univ _, e⟩)

/-! ## The arguments end as launched, the result at the second region's output array -/

/-- `main_arg0` reaches the end as launched: the host reshape does not write it and no region's write-back touches it. -/
theorem Wl3_main_arg0 (c : Dev nD) : Wl3 m c (Proc.devRef .tc main_arg0) = m ((c : Thread nD τ).loc main_arg0) :=
  calc Wl3 m c (Proc.devRef .tc main_arg0)
    _ = Wl2 m c (Proc.devRef .tc main_arg0) := (Wl3_arr m c 0).trans (((dat1 (Vr2 m) c).arrAt_in 0 rfl _).trans (A_eq1 (Vr2 m) c 0))
    _ = Wl1 m c (Proc.devRef .tc main_arg0) := Wl2_of_ne m c main_arg0 (by decide)
    _ = Wl0 m c (Proc.devRef .tc main_arg0) := V1_of m c main_arg0 (by decide)
    _ = m ((c : Thread nD τ).loc main_arg0) := rfl
/-- `main_arg1` reaches the end as launched: the host reshape does not write it and no region's write-back touches it. -/
theorem Wl3_main_arg1 (c : Dev nD) : Wl3 m c (Proc.devRef .tc main_arg1) = m ((c : Thread nD τ).loc main_arg1) :=
  calc Wl3 m c (Proc.devRef .tc main_arg1)
    _ = Wl2 m c (Proc.devRef .tc main_arg1) := (Wl3_arr m c 2).trans (((dat1 (Vr2 m) c).arrAt_in 2 rfl _).trans (A_eq1 (Vr2 m) c 2))
    _ = Wl1 m c (Proc.devRef .tc main_arg1) := (Wl2_arr m c 2).trans (((dat0 (Vr1 m) c).arrAt_in 2 rfl _).trans (A_eq0 (Vr1 m) c 2))
    _ = Wl0 m c (Proc.devRef .tc main_arg1) := V1_of m c main_arg1 (by decide)
    _ = m ((c : Thread nD τ).loc main_arg1) := rfl
/-- `main_arg2` reaches the end as launched: the host reshape does not write it and no region's write-back touches it. -/
theorem Wl3_main_arg2 (c : Dev nD) : Wl3 m c (Proc.devRef .tc main_arg2) = m ((c : Thread nD τ).loc main_arg2) :=
  calc Wl3 m c (Proc.devRef .tc main_arg2)
    _ = Wl2 m c (Proc.devRef .tc main_arg2) := (Wl3_arr m c 3).trans (((dat1 (Vr2 m) c).arrAt_in 3 rfl _).trans (A_eq1 (Vr2 m) c 3))
    _ = Wl1 m c (Proc.devRef .tc main_arg2) := (Wl2_arr m c 1).trans (((dat0 (Vr1 m) c).arrAt_in 1 rfl _).trans (A_eq0 (Vr1 m) c 1))
    _ = Wl0 m c (Proc.devRef .tc main_arg2) := V1_of m c main_arg2 (by decide)
    _ = m ((c : Thread nD τ).loc main_arg2) := rfl
/-- `main_arg3` reaches the end as launched: the host reshape does not write it and no region's write-back touches it. -/
theorem Wl3_main_arg3 (c : Dev nD) : Wl3 m c (Proc.devRef .tc main_arg3) = m ((c : Thread nD τ).loc main_arg3) :=
  calc Wl3 m c (Proc.devRef .tc main_arg3)
    _ = Wl2 m c (Proc.devRef .tc main_arg3) := (Wl3_arr m c 1).trans (((dat1 (Vr2 m) c).arrAt_in 1 rfl _).trans (A_eq1 (Vr2 m) c 1))
    _ = Wl1 m c (Proc.devRef .tc main_arg3) := (Wl2_arr m c 0).trans (((dat0 (Vr1 m) c).arrAt_in 0 rfl _).trans (A_eq0 (Vr1 m) c 0))
    _ = Wl0 m c (Proc.devRef .tc main_arg3) := V1_of m c main_arg3 (by decide)
    _ = m ((c : Thread nD τ).loc main_arg3) := rfl
/-- `main_arg4` reaches the end as launched: the host reshape does not write it and no region's write-back touches it. -/
theorem Wl3_main_arg4 (c : Dev nD) : Wl3 m c (Proc.devRef .tc main_arg4) = m ((c : Thread nD τ).loc main_arg4) :=
  calc Wl3 m c (Proc.devRef .tc main_arg4)
    _ = Wl2 m c (Proc.devRef .tc main_arg4) := Wl3_of_ne m c main_arg4 (by decide)
    _ = Wl1 m c (Proc.devRef .tc main_arg4) := Wl2_of_ne m c main_arg4 (by decide)
    _ = Wl0 m c (Proc.devRef .tc main_arg4) := V1_of m c main_arg4 (by decide)
    _ = m ((c : Thread nD τ).loc main_arg4) := rfl
/-- The result buffer ends at the second region's output array. -/
theorem Wl3_main_v2 (c : Dev nD) : Wl3 m c (Proc.devRef .tc main_v2) = (dat1 (Vr2 m) c).arrAt 5 cfg1.N := Wl3_arr m c 5

/-! ## The proof data family and what rides along -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (Vr1 m) c
  | ⟨1, _⟩ => fun c => dat1 (Vr2 m) c
abbrev 𝒱₀' : Variants := Variants.none
abbrev L' : GSem nD τ sig → Finset Unit := fun _ => ∅
abbrev lv' : GSem nD τ sig → Unit → ℕ := fun _ _ => 0
/-- Beside the buffers through every segment: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wl3 m c) ∗ ∃ r, prngReg c r)

/-! ## The regions as segments -/

set_option backward.isDefEq.respectTransparency.types false in
/-- The first region: entered from every unscoped buffer at the contents after the reshape, left with its output
    array at what the pipeline wrote back. -/
def reg0 : Pipeline.RegionSeg (pcfgs (F := F)) adm' (pdats m) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L' lv' 0 fun _ _ => rfl
  pre c := iprop(StableHlo.held (c : Thread nD τ) (Pipeline.ucRefs τ sig) (Wl1 m c) ∗ Rr c)
  post c := iprop(StableHlo.held (c : Thread nD τ) (Pipeline.ucRefs τ sig) (Wl2 m c) ∗ Rr c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the first region's exit contents, left with the result array at what the
    pipeline wrote back. Its invariant starts as the plain one and ends giving it back. -/
def reg1 : Pipeline.RegionSeg (pcfgs (F := F)) adm' (pdats m) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L' lv' 1 fun _ _ => rfl
  pre c := iprop(StableHlo.held (c : Thread nD τ) (Pipeline.ucRefs τ sig) (Wl2 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec1 c : sProp 𝕄) from by
      unfold Pipeline.ΦA
      iintro ⟨Hp, -, Hr⟩
      isplitl [Hr]; · iexact Hr
      iexact Hp).trans (hin1 (Vr2 m) c)
  hout c := by
    rw [Pipeline.ownSems0_none]
    exact (hout1 (Vr2 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs' : List (Pipeline.Seg (pcfgs (F := F)) adm' (pdats m) () defs₀ 𝒱₀' L' lv') :=
  [ .host (hseg hostOps0 hostOps0_sub hostOps0_fresh (Wl0 m)),
    .region (reg0 m),
    .region (reg1 m) ]
theorem main_run (c : Dev nD) : main (F := F) c = Pipeline.Seg.run (segs' m) := (main_chain c).trans (by chain_rfl)

set_option backward.isDefEq.respectTransparency.types false in
/-- THE RUN. From any memory with zero counters every weakly fair execution of @main terminates, nothing faulting, and
    every final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wl3 m c b) :=
  Pipeline.θ_run_regions_kit (pcfgs (F := F)) adm' (pdats m) () cellOf_inj emb₁ defs₀ 𝒱₀' L' lv' m ρ main (segs' m)
    (fun c Q => by rw [main_run m c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl0 m c) ∗ Rr c)) (Tₙ := Tend m)
    (hch := ⟨fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (Wl0 m c)
        from Pipeline.unscopedBufs_held c (Wl0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl3 m c b)
    (hfin := fun c s' => by
      iintro ⟨⟨Hh, -⟩, HSI⟩
      unfold StableHlo.held
      imodintro
      iapply (pointsTo_read_all (Pipeline.ucRefs τ sig) (fun b => (((c : Thread nD τ)).1, b)) (Wl3 m c) s')
      isplitl [Hh] <;> iassumption)
    (hQ := fun s h => h)

/-- The same read at the result and at the five arguments: the result at the second region's output array, each
    argument as launched. -/
theorem run_main : θ_run defs (onTc (τ := τ) (main (F := F))) ⟨m, fun _ => 0, ρ⟩ (fun r => ∀ c : Dev nD,
      r.2.mem ((c.tc : Thread nD τ).loc main_v2) = (dat1 (Vr2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v2 (by decide))).trans (Wl3_main_v2 m c),
     (h c _ (mem_uc main_arg0 (by decide))).trans (Wl3_main_arg0 m c),
     (h c _ (mem_uc main_arg1 (by decide))).trans (Wl3_main_arg1 m c),
     (h c _ (mem_uc main_arg2 (by decide))).trans (Wl3_main_arg2 m c),
     (h c _ (mem_uc main_arg3 (by decide))).trans (Wl3_main_arg3 m c),
     (h c _ (mem_uc main_arg4 (by decide))).trans (Wl3_main_arg4 m c)⟩) (run_all m ρ)

/-- THE FRAME: the program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_main m ρ)

end Cert.Kernel.Hand

end
-- ==== Proof.KI.Norm.lean ====
/-
  The first kernel region (the weight-norm scale), at any float instance. At grid point t the body reads
  row block t of the base weight (256 × 4096), row block t of B (256 × 16), all of A (16 × 4096) and
  row block t of the magnitude column (256 × 1), and stores one whole 1 × 256 row into its output buffer:
  the row the pipeline writes back as columns 256·t … 256·t + 255 of the 1 × 4096 scale array. Nothing is
  kept between points, so the region's invariant is only "the other scoped buffers and the generator
  register, untouched".
-/
import proofs.«152894_j41712722379292_1_alg».proof.Proof.Gen.KernelIdeal.Launch
import proofs.«152894_j41712722379292_1_alg».proof.Proof.Gen.KernelIdeal.Skeleton
import proofs.«152894_j41712722379292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Norm

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or the block index has not moved since it was fetched. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole 1 × 256 output buffer, and each input buffer whole, as rectangles. -/
abbrev rOut0 : Rect S1x256 := Rect.unit (s := S1x256) ![0, 0] S1x256.size inb_S1x256_S1x256_0_0
abbrev rW0 : Rect S256x4096 := Rect.unit (s := S256x4096) ![0, 0] S256x4096.size inb_S256x4096_S256x4096_0_0
abbrev rB0 : Rect S256x16 := Rect.unit (s := S256x16) ![0, 0] S256x16.size inb_S256x16_S256x16_0_0
abbrev rA0 : Rect S16x4096 := Rect.unit (s := S16x4096) ![0, 0] S16x4096.size inb_S16x4096_S16x4096_0_0
abbrev rM0 : Rect S256x1 := Rect.unit (s := S256x1) ![0, 0] S256x1.size inb_S256x1_S256x1_0_0

/-- What the body leaves in the output buffer: its one store, of the scale row computed from the four input blocks
    (base-weight rows `xW`, B rows `xB`, all of A `xA`, magnitude rows `xM`). -/
def out0_4 (xW : Vec F S256x4096 .f32) (xB : Vec F S256x16 .f32) (xA : Vec F S16x4096 .f32) (xM : Vec F S256x1 .f32) : Vec F S1x256 .f32 :=
  View.canon [⟨rOut0, k0_pay1 (View.ld xB rB0) (View.ld xA rA0) (View.ld xW rW0) (View.ld xM rM0)⟩]

/-- The one store covers the buffer. -/
theorem cover0_4 (p0 : Vec F S1x256 .f32) (y : S1x256.Idx) :
    ∃ pc ∈ ([⟨rOut0, p0⟩] : List (View.Piece (Elt F) S1x256 .f32)), y ∈ pc.1.set :=
  View.cover_of_tiled [⟨rOut0, p0⟩] S1x256.size (by rfl) y

set_option maxHeartbeats 1000000 in
/-- The body on whole staging buffers, the inputs' at given contents and the output's at anything, runs to the
    continuation holding the inputs' as they were and the output's at `out0_4` of them. -/
theorem sound_kernel0 (c : Dev nD) (E : Set ℕ) (i : grid0.Coords)
    (arg1 : Memref sig .tc .vmem S256x4096 .f32) (harg1 : arg1.IsWhole) (arg2 : Memref sig .tc .vmem S256x16 .f32) (harg2 : arg2.IsWhole)
    (arg3 : Memref sig .tc .vmem S16x4096 .f32) (harg3 : arg3.IsWhole) (arg4 : Memref sig .tc .vmem S256x1 .f32) (harg4 : arg4.IsWhole)
    (arg5 : Memref sig .tc .vmem S1x256 .f32) (harg5 : arg5.IsWhole)
    (xW : Vec F S256x4096 .f32) (xB : Vec F S256x16 .f32) (xA : Vec F S16x4096 .f32) (xM : Vec F S256x1 .f32) (K : PUnit → sProp 𝕄) :
    iprop(owns (c : Thread nD τ) arg1 fullShare xW ∗ owns (c : Thread nD τ) arg2 fullShare xB ∗ owns (c : Thread nD τ) arg3 fullShare xA
        ∗ owns (c : Thread nD τ) arg4 fullShare xM ∗ (∃ d, owns (c : Thread nD τ) arg5 fullShare d)
        ∗ (iprop(owns (c : Thread nD τ) arg1 fullShare xW ∗ owns (c : Thread nD τ) arg2 fullShare xB ∗ owns (c : Thread nD τ) arg3 fullShare xA
            ∗ owns (c : Thread nD τ) arg4 fullShare xM ∗ owns (c : Thread nD τ) arg5 fullShare (out0_4 xW xB xA xM)) -∗ K ⟨⟩))
      ⊢ wp frame (wpE (defs₀ (F := F)) Variants.none c none) E (cc0__norm_kernel i arg1 harg1 arg2 harg2 arg3 harg3 arg4 harg4 arg5 harg5) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_4 (F := F) _)

/-- The proof data of the region on core `c`: the arrays as the region finds them; after the body at point `t`
    each input's buffer at its block and the output's at `out0_4` of the input blocks; the invariant "the other scoped
    buffers and the generator register"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Norm

end Cert.KernelIdeal.Hand

end
-- ==== Proof.KI.MainRuns.lean ====
/-
  The second kernel region (the fused dense and low-rank product), what its three control cases share. The grid
  is 8 × 4 × 8, the last coordinate k walking the eight 512-column blocks of the contraction. At k = 0 the body
  resets its two accumulators (a 1024 × 1024 one for x·Wᵀ and a 1024 × 16 one for x·Aᵀ), at every k it adds the
  block's partial products into them, and at k = 7 it combines them with the scale row and stores the 1024 × 1024
  output block; elsewhere the output window is idle and is not written back.
-/
import proofs.«152894_j41712722379292_1_alg».proof.Proof.Gen.KernelIdeal.Launch
import proofs.«152894_j41712722379292_1_alg».proof.Proof.Gen.KernelIdeal.Skeleton
import proofs.«152894_j41712722379292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Main

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, in closed form over the grid -/

/-- "k = 0": the accumulators are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the output block is computed and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from k = 7 the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At k = 7 it is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The two accumulators: whole scoped buffers of the kernel's own. -/
abbrev scM1_0 : Memref sig .tc .vmem S1024x1024 .f32 := Memref.whole cc1_scratch0
abbrev scM1_1 : Memref sig .tc .vmem S1024x16 .f32 := Memref.whole cc1_scratch1
/-- Views through which the output block's and the accumulators' contents are stated. -/
abbrev VO1_5 : View sig .tc .vmem S1024x1024 .f32 := (Memref.whole cc1_stg5_0 : Memref sig .tc .vmem S1024x1024 .f32).view
abbrev VS1_0 : View sig .tc .vmem S1024x1024 .f32 := scM1_0.view
abbrev VS1_1 : View sig .tc .vmem S1024x16 .f32 := scM1_1.view
/-- The whole-buffer rectangles of the three stored shapes. -/
abbrev rBig : Rect S1024x1024 := Rect.unit (s := S1024x1024) ![0, 0] S1024x1024.size inb_S1024x1024_S1024x1024_0_0
abbrev rLow : Rect S1024x16 := Rect.unit (s := S1024x16) ![0, 0] S1024x16.size inb_S1024x16_S1024x16_0_0

/-- The scoped buffers of the core that are neither a staging buffer of this region nor one of its accumulators
    (the first region's staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region's plain invariant with the two accumulators split out as memrefs owned at some contents. -/
theorem PhiA1_eq (c : Dev nD) :
    (Pipeline.ΦA spec1 c : sProp 𝕄)
      = iprop(others1 (F := F) c ∗ (∃ d, owns (c : Thread nD τ) scM1_0 fullShare d) ∗ (∃ d, owns (c : Thread nD τ) scM1_1 fullShare d) ∗ (∃ r, prngReg c r)) := by
  unfold Pipeline.ΦA others1; rw [scopedRest1_eq]; simp only [scM1_0, scM1_1, owns_whole]
  have h1 : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ ∃ r, prngReg c r) : sProp 𝕄) ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ ∃ r, prngReg c r) := by
    iintro ⟨⟨H1, H2, H3, H4, H5, H6, H7, H8, H9, HS0, HS1⟩, Hg⟩
    isplitl [H1 H2 H3 H4 H5 H6 H7 H8 H9]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS0]; · iexact HS0
    isplitl [HS1]; · iexact HS1
    iexact Hg
  have h2 : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ ∃ r, prngReg c r) : sProp 𝕄) ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ ∃ r, prngReg c r) := by
    iintro ⟨⟨H1, H2, H3, H4, H5, H6, H7, H8, H9⟩, HS0, HS1, Hg⟩
    isplitr [Hg]
    swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iexact HS1
  exact BI.Entails.antisymm h1 h2

end Main

end Cert.KernelIdeal.Hand

end
-- ==== Proof.KI.MainRunA.lean ====
/-
  The second kernel region, control case A (k = 0): both accumulators are reset to zero and the first block's partial products are added; the output window is idle.
-/
import proofs.«152894_j41712722379292_1_alg».proof.Proof.KI.MainRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the two accumulators at k = 0, as pieces (last store first), with the proof that on
    whole memrefs — the inputs' at their contents, the idle output's at contents handed back untouched, the accumulators'
    at anything — the body runs to the continuation holding everything else as it was and each accumulator with its
    pieces written. The pieces are found by the run itself. -/
noncomputable def kernelRun1_A (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i)
    (x0 : Vec F S1024x512 .f32) (x1 : Vec F S1024x512 .f32) (x2 : Vec F S16x512 .f32) :
    Σ' (LS0 : List (View.Piece (Elt F) S1024x1024 .f32)), { LS1 : List (View.Piece (Elt F) S1024x16 .f32) //
      ∀ (x3 : Vec F S1024x16 .f32) (x4 : Vec F S1x1024 .f32) (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, fun x3 x4 xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Hand

end
-- ==== Proof.KI.MainRunB.lean ====
/-
  The second kernel region, control case B (0 < k < 7): the block's partial products are added into both accumulators, which hold what the point before left; the output window is idle.
-/
import proofs.«152894_j41712722379292_1_alg».proof.Proof.KI.MainRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The same away from both ends: the accumulators are entered at given contents `xs0`, `xs1`. -/
noncomputable def kernelRun1_B (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i)
    (x0 : Vec F S1024x512 .f32) (x1 : Vec F S1024x512 .f32) (x2 : Vec F S16x512 .f32)
    (xs0 : Vec F S1024x1024 .f32) (xs1 : Vec F S1024x16 .f32) :
    Σ' (LS0 : List (View.Piece (Elt F) S1024x1024 .f32)), { LS1 : List (View.Piece (Elt F) S1024x16 .f32) //
      ∀ (x3 : Vec F S1024x16 .f32) (x4 : Vec F S1x1024 .f32) (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, fun x3 x4 xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Hand

end
-- ==== Proof.KI.MainRunC.lean ====
/-
  The second kernel region, control case C (k = 7): the last block's partial products are added, and the output block is computed from the accumulators, the B block and the scale row, and stored whole.
-/
import proofs.«152894_j41712722379292_1_alg».proof.Proof.KI.MainRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At k = 7 the output buffer is stored too: its pieces `L5` beside the accumulators'. -/
noncomputable def kernelRun1_C (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i)
    (x0 : Vec F S1024x512 .f32) (x1 : Vec F S1024x512 .f32) (x2 : Vec F S16x512 .f32) (x3 : Vec F S1024x16 .f32) (x4 : Vec F S1x1024 .f32)
    (xs0 : Vec F S1024x1024 .f32) (xs1 : Vec F S1024x16 .f32) :
    Σ' (L5 : List (View.Piece (Elt F) S1024x1024 .f32)), Σ' (LS0 : List (View.Piece (Elt F) S1024x1024 .f32)), { LS1 : List (View.Piece (Elt F) S1024x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.KernelIdeal.Hand

end
-- ==== Proof.KI.MainBody.lean ====
/-
  The second kernel region: what its buffers hold point by point, and the body obligation. The two accumulators are
  the kernel's own scoped buffers, so the region's invariant carries them: before the first point at anything,
  after point n at what the recursion below says that point left. The output block is stored at k = 7 only, from
  the accumulators as the eight points of its (i, j) left them; at the other points the output window is idle.
-/
import proofs.«152894_j41712722379292_1_alg».proof.Proof.KI.MainRunA
import proofs.«152894_j41712722379292_1_alg».proof.Proof.KI.MainRunB
import proofs.«152894_j41712722379292_1_alg».proof.Proof.KI.MainRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves, read back through its pieces -/

/-- At k = 0 the stores into the 1024 × 1024 accumulator cover it; what they leave. -/
theorem scover1_A_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i) (x0 : Vec F S1024x512 .f32) (x1 : Vec F S1024x512 .f32) (x2 : Vec F S16x512 .f32) (y : S1024x1024.Idx) :
    ∃ pc ∈ (kernelRun1_A c i arg3 harg3 arg4 harg4 arg5 harg5 arg6 harg6 arg7 harg7 arg8 harg8 arg9 harg9 arg10 harg10 hc0 hc1 x0 x1 x2).1, y ∈ pc.1.set :=
  View.cover_of_tiledL (kernelRun1_A c i arg3 harg3 arg4 harg4 arg5 harg5 arg6 harg6 arg7 harg7 arg8 harg8 arg9 harg9 arg10 harg10 hc0 hc1 x0 x1 x2).1 S1024x1024.size (by sl_kernel_rfl) y
def sout1_A_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i) (x0 : Vec F S1024x512 .f32) (x1 : Vec F S1024x512 .f32) (x2 : Vec F S16x512 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2).1)

/-- At k = 0 the stores into the 1024 × 16 accumulator cover it; what they leave. -/
theorem scover1_A_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i) (x0 : Vec F S1024x512 .f32) (x1 : Vec F S1024x512 .f32) (x2 : Vec F S16x512 .f32) (y : S1024x16.Idx) :
    ∃ pc ∈ (kernelRun1_A c i arg3 harg3 arg4 harg4 arg5 harg5 arg6 harg6 arg7 harg7 arg8 harg8 arg9 harg9 arg10 harg10 hc0 hc1 x0 x1 x2).2.1, y ∈ pc.1.set :=
  View.cover_of_tiledL (kernelRun1_A c i arg3 harg3 arg4 harg4 arg5 harg5 arg6 harg6 arg7 harg7 arg8 harg8 arg9 harg9 arg10 harg10 hc0 hc1 x0 x1 x2).2.1 S1024x16.size (by sl_kernel_rfl) y
def sout1_A_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i) (x0 : Vec F S1024x512 .f32) (x1 : Vec F S1024x512 .f32) (x2 : Vec F S16x512 .f32) : Vec F S1024x16 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2).2.1)

/-- For 0 < k < 7, the same for the 1024 × 1024 accumulator. -/
theorem scover1_B_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i) (x0 : Vec F S1024x512 .f32) (x1 : Vec F S1024x512 .f32) (x2 : Vec F S16x512 .f32) (xs0 : Vec F S1024x1024 .f32) (xs1 : Vec F S1024x16 .f32) (y : S1024x1024.Idx) :
    ∃ pc ∈ (kernelRun1_B c i arg3 harg3 arg4 harg4 arg5 harg5 arg6 harg6 arg7 harg7 arg8 harg8 arg9 harg9 arg10 harg10 hc0 hc1 x0 x1 x2 xs0 xs1).1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1).1 S1024x1024.size (by sl_kernel_rfl) y
def sout1_B_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i) (x0 : Vec F S1024x512 .f32) (x1 : Vec F S1024x512 .f32) (x2 : Vec F S16x512 .f32) (xs0 : Vec F S1024x1024 .f32) (xs1 : Vec F S1024x16 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 xs0 xs1).1)

/-- For 0 < k < 7, the same for the 1024 × 16 accumulator. -/
theorem scover1_B_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i) (x0 : Vec F S1024x512 .f32) (x1 : Vec F S1024x512 .f32) (x2 : Vec F S16x512 .f32) (xs0 : Vec F S1024x1024 .f32) (xs1 : Vec F S1024x16 .f32) (y : S1024x16.Idx) :
    ∃ pc ∈ (kernelRun1_B c i arg3 harg3 arg4 harg4 arg5 harg5 arg6 harg6 arg7 harg7 arg8 harg8 arg9 harg9 arg10 harg10 hc0 hc1 x0 x1 x2 xs0 xs1).2.1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1).2.1 S1024x16.size (by sl_kernel_rfl) y
def sout1_B_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i) (x0 : Vec F S1024x512 .f32) (x1 : Vec F S1024x512 .f32) (x2 : Vec F S16x512 .f32) (xs0 : Vec F S1024x1024 .f32) (xs1 : Vec F S1024x16 .f32) : Vec F S1024x16 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 xs0 xs1).2.1)

/-- At k = 7 the one store into the output buffer covers it; what it leaves. -/
theorem cover1_C_5 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0 xs1).1 S1024x1024.size (by sl_kernel_rfl) y
def out1_C_5 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 arg10 harg10 hc0 hc1 x0 x1 x2 x3 x4 xs0 xs1).1)
/-- At k = 7, the 1024 × 1024 accumulator. -/
theorem scover1_C_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0 xs1).2.1 S1024x1024.size (by sl_kernel_rfl) y
def sout1_C_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 xs0 xs1).2.1)

/-- At k = 7, the 1024 × 16 accumulator. -/
theorem scover1_C_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) (y : S1024x16.Idx) :
    ∃ pc ∈ (kernelRun1_C c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0 xs1).2.2.1 S1024x16.size (by sl_kernel_rfl) y
def sout1_C_1 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) : Vec F S1024x16 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 x3 x4 xs0 xs1).2.2.1)

/-- A placeholder for the output block's buffer at the points where the window is idle: nothing reads it. -/
def junk5 : Vec F S1024x1024 .f32 := VO1_5.read (Elt F) VO1_5.junk

section Body

variable (V : (c : Dev nD) → (b : Ref sig .tc) → Buf (Elt F) ((c : Thread nD τ).loc b))

/-! ## What the buffers hold after each point -/

/-- After the body at position `n`: the output block's buffer, the 1024 × 1024 accumulator, the 1024 × 16 accumulator.
    The case is decided by n mod 8; away from k = 0 the accumulators are entered at what position n − 1 left. -/
def outsAt1 (c : Dev nD) : (n : ℕ) → n < cfg1.N → Vec F S1024x1024 .f32 × Vec F S1024x1024 .f32 × Vec F S1024x16 .f32
  | 0, hn => (junk5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (junk5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (junk5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 8 = 0) (h1 : ¬t.val % 8 = 7) :
    outsAt1 V c t.val t.isLt = (junk5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (junk5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulators -/

/-- Before position `n`: before the first point the plain invariant (every scoped buffer that is no staging buffer at
    anything, the generator register at some state); afterwards the same with each accumulator at what position
    n − 1 left in it. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2.1)
      ∗ owns (c : Thread nD τ) scM1_1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((outsAt1 V c n hn).2.1)
      ∗ owns (c : Thread nD τ) scM1_1 fullShare ((outsAt1 V c n hn).2.2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2.1)
      ∗ owns (c : Thread nD τ) scM1_1 fullShare ((outsAt1 V c (n - 1) (by omega)).2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input window's buffer is handed back at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in
/-- The body at any point. n mod 8 says which case the point is in; the invariant hands the body the accumulators
    (at anything before the first point, else at what the point before left) and takes them back at this point's
    contents; the inputs' buffers hold their blocks and come back untouched; the output's buffer comes back untouched
    where the window is idle and at the stored block at k = 7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 256 := lt_of_lt_of_eq t.isLt (show cfg1.N = 256 from N_1)
  by_cases h0 : t.val % 8 = 0
  · by_cases h1 : t.val % 8 = 7
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨Hoth, HS0, HS1, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)).2.2 (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨Hoth, HS0, HS1, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)).2.2 (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1; (try dsimp only)
      rw [PhiS1_castSucc V c t, PhiS1_pos V c _ _ hz]
      iintro ⟨⟨Hoth, HS0, HS1, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [Hoth HS0 HS1 Hg]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨Hoth, HS0, HS1, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) _ _).2.2 (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hoth HS0 HS1 Hg]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hoth, HS0, HS1, Hg⟩
  isplitl [Hoth]; · iexact Hoth
  isplitl [HS0]; · iexists _; iexact HS0
  isplitl [HS1]; · iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Body

end Cert.KernelIdeal.Hand

end
-- ==== Proof.KI.Run.lean ====
/-
  The whole program's run, at any float instance. @main is: one host operation (the magnitude reshaped to a
  column), the first kernel region, the second kernel region. Between two of these a core holds every unscoped
  buffer at a valuation: the launch memory; then the reshape's result added; then the first region's output array
  (the scale row) at what its sixteen write-backs leave; then the second region's output array at what its
  thirty-two write-backs leave. The run's post reads the last valuation at the result and at the five arguments.
-/
import proofs.«152894_j41712722379292_1_alg».proof.Proof.KI.Norm
import proofs.«152894_j41712722379292_1_alg».proof.Proof.KI.MainBody
import proofs.«152894_j41712722379292_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wl0 : Dev nD → Valuation τ sig (Elt F) := fun c b => m (c, b)
/-- After the host reshape (the first region's entry). -/
abbrev Wl1 : Dev nD → Valuation τ sig (Elt F) := fun c => StableHlo.after hostOps0 (Wl0 m c)
abbrev Vr1 : (c : Dev nD) → (b : Ref sig .tc) → Buf (Elt F) ((c : Thread nD τ).loc b) := fun c b => Wl1 m c b
/-- At the first region's exit: its arrays at what the pipeline leaves, every other buffer as entered. -/
def Wl2 (c : Dev nD) : Valuation τ sig (Elt F) :=
  Pipeline.withArrays spec0 c (Wl1 m c) fun w => (dat0 (Vr1 m) c).arrAt w cfg0.N
theorem Wl2_arr (c : Dev nD) (w : Fin cfg0.W) :
    Wl2 m c (Proc.devRef .tc (Pipeline.arrRef spec0 w)) = (dat0 (Vr1 m) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m c (Proc.devRef .tc b) = Wl1 m c (Proc.devRef .tc b) := by
  unfold Wl2; exact Pipeline.withArrays_of_ne spec0 c _ _ b hb
abbrev Vr2 : (c : Dev nD) → (b : Ref sig .tc) → Buf (Elt F) ((c : Thread nD τ).loc b) := fun c b => Wl2 m c b
theorem hF0 (c : Dev nD) (w : Fin cfg0.W) : (dat0 (Vr1 m) c).arrAt w cfg0.N = Vr2 m c (Pipeline.arrRef spec0 w) :=
  (Wl2_arr m c w).symm
theorem hrest0 (c : Dev nD) : ∀ b, b ∉ Finset.univ.image (Pipeline.arrRef spec0) → Vr2 m c b = Vr1 m c b :=
  fun b hb => Wl2_of_ne m c b fun w e => hb (Finset.mem_image.mpr ⟨w, Finset.mem_univ _, e⟩)
/-- At the second region's exit. -/
def Wl3 (c : Dev nD) : Valuation τ sig (Elt F) :=
  Pipeline.withArrays spec1 c (Wl2 m c) fun w => (dat1 (Vr2 m) c).arrAt w cfg1.N
theorem Wl3_arr (c : Dev nD) (w : Fin cfg1.W) :
    Wl3 m c (Proc.devRef .tc (Pipeline.arrRef spec1 w)) = (dat1 (Vr2 m) c).arrAt w cfg1.N := by
  unfold Wl3; exact Pipeline.withArrays_arr spec1 launch1.win.arr_inj c _ _ w
theorem Wl3_of_ne (c : Dev nD) (b : Ref sig .tc) (hb : ∀ w, Pipeline.arrRef spec1 w ≠ b) :
    Wl3 m c (Proc.devRef .tc b) = Wl2 m c (Proc.devRef .tc b) := by
  unfold Wl3; exact Pipeline.withArrays_of_ne spec1 c _ _ b hb
abbrev Vr3 : (c : Dev nD) → (b : Ref sig .tc) → Buf (Elt F) ((c : Thread nD τ).loc b) := fun c b => Wl3 m c b
theorem hF1 (c : Dev nD) (w : Fin cfg1.W) : (dat1 (Vr2 m) c).arrAt w cfg1.N = Vr3 m c (Pipeline.arrRef spec1 w) :=
  (Wl3_arr m c w).symm
theorem hrest1 (c : Dev nD) : ∀ b, b ∉ Finset.univ.image (Pipeline.arrRef spec1) → Vr3 m c b = Vr2 m c b :=
  fun b hb => Wl3_of_ne m c b fun w e => hb (Finset.mem_image.mpr ⟨w, Finset.mem_univ _, e⟩)

/-! ## The arguments end as launched, the result at the second region's output array -/

/-- `main_arg0` reaches the end as launched: the host reshape does not write it and no region's write-back touches it. -/
theorem Wl3_main_arg0 (c : Dev nD) : Wl3 m c (Proc.devRef .tc main_arg0) = m ((c : Thread nD τ).loc main_arg0) :=
  calc Wl3 m c (Proc.devRef .tc main_arg0)
    _ = Wl2 m c (Proc.devRef .tc main_arg0) := (Wl3_arr m c 0).trans (((dat1 (Vr2 m) c).arrAt_in 0 rfl _).trans (A_eq1 (Vr2 m) c 0))
    _ = Wl1 m c (Proc.devRef .tc main_arg0) := Wl2_of_ne m c main_arg0 (by decide)
    _ = Wl0 m c (Proc.devRef .tc main_arg0) := V1_of m c main_arg0 (by decide)
    _ = m ((c : Thread nD τ).loc main_arg0) := rfl
/-- `main_arg1` reaches the end as launched: the host reshape does not write it and no region's write-back touches it. -/
theorem Wl3_main_arg1 (c : Dev nD) : Wl3 m c (Proc.devRef .tc main_arg1) = m ((c : Thread nD τ).loc main_arg1) :=
  calc Wl3 m c (Proc.devRef .tc main_arg1)
    _ = Wl2 m c (Proc.devRef .tc main_arg1) := (Wl3_arr m c 2).trans (((dat1 (Vr2 m) c).arrAt_in 2 rfl _).trans (A_eq1 (Vr2 m) c 2))
    _ = Wl1 m c (Proc.devRef .tc main_arg1) := (Wl2_arr m c 2).trans (((dat0 (Vr1 m) c).arrAt_in 2 rfl _).trans (A_eq0 (Vr1 m) c 2))
    _ = Wl0 m c (Proc.devRef .tc main_arg1) := V1_of m c main_arg1 (by decide)
    _ = m ((c : Thread nD τ).loc main_arg1) := rfl
/-- `main_arg2` reaches the end as launched: the host reshape does not write it and no region's write-back touches it. -/
theorem Wl3_main_arg2 (c : Dev nD) : Wl3 m c (Proc.devRef .tc main_arg2) = m ((c : Thread nD τ).loc main_arg2) :=
  calc Wl3 m c (Proc.devRef .tc main_arg2)
    _ = Wl2 m c (Proc.devRef .tc main_arg2) := (Wl3_arr m c 3).trans (((dat1 (Vr2 m) c).arrAt_in 3 rfl _).trans (A_eq1 (Vr2 m) c 3))
    _ = Wl1 m c (Proc.devRef .tc main_arg2) := (Wl2_arr m c 1).trans (((dat0 (Vr1 m) c).arrAt_in 1 rfl _).trans (A_eq0 (Vr1 m) c 1))
    _ = Wl0 m c (Proc.devRef .tc main_arg2) := V1_of m c main_arg2 (by decide)
    _ = m ((c : Thread nD τ).loc main_arg2) := rfl
/-- `main_arg3` reaches the end as launched: the host reshape does not write it and no region's write-back touches it. -/
theorem Wl3_main_arg3 (c : Dev nD) : Wl3 m c (Proc.devRef .tc main_arg3) = m ((c : Thread nD τ).loc main_arg3) :=
  calc Wl3 m c (Proc.devRef .tc main_arg3)
    _ = Wl2 m c (Proc.devRef .tc main_arg3) := (Wl3_arr m c 1).trans (((dat1 (Vr2 m) c).arrAt_in 1 rfl _).trans (A_eq1 (Vr2 m) c 1))
    _ = Wl1 m c (Proc.devRef .tc main_arg3) := (Wl2_arr m c 0).trans (((dat0 (Vr1 m) c).arrAt_in 0 rfl _).trans (A_eq0 (Vr1 m) c 0))
    _ = Wl0 m c (Proc.devRef .tc main_arg3) := V1_of m c main_arg3 (by decide)
    _ = m ((c : Thread nD τ).loc main_arg3) := rfl
/-- `main_arg4` reaches the end as launched: the host reshape does not write it and no region's write-back touches it. -/
theorem Wl3_main_arg4 (c : Dev nD) : Wl3 m c (Proc.devRef .tc main_arg4) = m ((c : Thread nD τ).loc main_arg4) :=
  calc Wl3 m c (Proc.devRef .tc main_arg4)
    _ = Wl2 m c (Proc.devRef .tc main_arg4) := Wl3_of_ne m c main_arg4 (by decide)
    _ = Wl1 m c (Proc.devRef .tc main_arg4) := Wl2_of_ne m c main_arg4 (by decide)
    _ = Wl0 m c (Proc.devRef .tc main_arg4) := V1_of m c main_arg4 (by decide)
    _ = m ((c : Thread nD τ).loc main_arg4) := rfl
/-- The result buffer ends at the second region's output array. -/
theorem Wl3_main_v2 (c : Dev nD) : Wl3 m c (Proc.devRef .tc main_v2) = (dat1 (Vr2 m) c).arrAt 5 cfg1.N := Wl3_arr m c 5

/-! ## The proof data family and what rides along -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (Vr1 m) c
  | ⟨1, _⟩ => fun c => dat1 (Vr2 m) c
abbrev 𝒱₀' : Variants := Variants.none
abbrev L' : GSem nD τ sig → Finset Unit := fun _ => ∅
abbrev lv' : GSem nD τ sig → Unit → ℕ := fun _ _ => 0
/-- Beside the buffers through every segment: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wl3 m c) ∗ ∃ r, prngReg c r)

/-! ## The regions as segments -/

set_option backward.isDefEq.respectTransparency.types false in
/-- The first region: entered from every unscoped buffer at the contents after the reshape, left with its output
    array at what the pipeline wrote back. -/
def reg0 : Pipeline.RegionSeg (pcfgs (F := F)) adm' (pdats m) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L' lv' 0 fun _ _ => rfl
  pre c := iprop(StableHlo.held (c : Thread nD τ) (Pipeline.ucRefs τ sig) (Wl1 m c) ∗ Rr c)
  post c := iprop(StableHlo.held (c : Thread nD τ) (Pipeline.ucRefs τ sig) (Wl2 m c) ∗ Rr c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the first region's exit contents, left with the result array at what the
    pipeline wrote back. Its invariant starts as the plain one and ends giving it back. -/
def reg1 : Pipeline.RegionSeg (pcfgs (F := F)) adm' (pdats m) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L' lv' 1 fun _ _ => rfl
  pre c := iprop(StableHlo.held (c : Thread nD τ) (Pipeline.ucRefs τ sig) (Wl2 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec1 c : sProp 𝕄) from by
      unfold Pipeline.ΦA
      iintro ⟨Hp, -, Hr⟩
      isplitl [Hr]; · iexact Hr
      iexact Hp).trans (hin1 (Vr2 m) c)
  hout c := by
    rw [Pipeline.ownSems0_none]
    exact (hout1 (Vr2 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs' : List (Pipeline.Seg (pcfgs (F := F)) adm' (pdats m) () defs₀ 𝒱₀' L' lv') :=
  [ .host (hseg hostOps0 hostOps0_sub hostOps0_fresh (Wl0 m)),
    .region (reg0 m),
    .region (reg1 m) ]
theorem main_run (c : Dev nD) : main (F := F) c = Pipeline.Seg.run (segs' m) := (main_chain c).trans (by chain_rfl)

set_option backward.isDefEq.respectTransparency.types false in
/-- THE RUN. From any memory with zero counters every weakly fair execution of @main terminates, nothing faulting, and
    every final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wl3 m c b) :=
  Pipeline.θ_run_regions_kit (pcfgs (F := F)) adm' (pdats m) () cellOf_inj emb₁ defs₀ 𝒱₀' L' lv' m ρ main (segs' m)
    (fun c Q => by rw [main_run m c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl0 m c) ∗ Rr c)) (Tₙ := Tend m)
    (hch := ⟨fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (Wl0 m c)
        from Pipeline.unscopedBufs_held c (Wl0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl3 m c b)
    (hfin := fun c s' => by
      iintro ⟨⟨Hh, -⟩, HSI⟩
      unfold StableHlo.held
      imodintro
      iapply (pointsTo_read_all (Pipeline.ucRefs τ sig) (fun b => (((c : Thread nD τ)).1, b)) (Wl3 m c) s')
      isplitl [Hh] <;> iassumption)
    (hQ := fun s h => h)

/-- The same read at the result and at the five arguments: the result at the second region's output array, each
    argument as launched. -/
theorem run_main : θ_run defs (onTc (τ := τ) (main (F := F))) ⟨m, fun _ => 0, ρ⟩ (fun r => ∀ c : Dev nD,
      r.2.mem ((c.tc : Thread nD τ).loc main_v2) = (dat1 (Vr2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v2 (by decide))).trans (Wl3_main_v2 m c),
     (h c _ (mem_uc main_arg0 (by decide))).trans (Wl3_main_arg0 m c),
     (h c _ (mem_uc main_arg1 (by decide))).trans (Wl3_main_arg1 m c),
     (h c _ (mem_uc main_arg2 (by decide))).trans (Wl3_main_arg2 m c),
     (h c _ (mem_uc main_arg3 (by decide))).trans (Wl3_main_arg3 m c),
     (h c _ (mem_uc main_arg4 (by decide))).trans (Wl3_main_arg4 m c)⟩) (run_all m ρ)

/-- THE FRAME: the program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_main m ρ)

end Cert.KernelIdeal.Hand

end
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.Spec.lean ====
/-
  The specification. With x : [8192, 4096], A : [16, 4096], B : [4096, 16], W : [4096, 4096] and
  mag : [4096], the combined weight is C(j, i) = W(j, i) + 2 · (B·A)(j, i), the scale of output column j
  is s(j) = mag(j) / sqrt(∑ i, C(j, i)²), and the result at (t, j) is
      (s(j) − 1) · ∑ k, x(t, k) · W(j, k)  +  (s(j) · ∑ r, (∑ k, x(t, k) · A(r, k)) · B(j, r)) · 2
  on the extended reals, the literals 1 and 2 kept as their binary words. Also here: a matrix product of any
  float formats into a zero accumulator read as a row against a column, and the regrouping of a sum over
  4096 columns into eight consecutive blocks of 512.
-/
import proofs.«152894_j41712722379292_1_alg».proof.Proof.LibRowDot
import Idealize.ShloMosaic.Lib.ValueIdx
import Idealize.ShloMosaic.PureOps.Ideal.Laws

noncomputable section

open scoped BigOperators

namespace Cert.Dora

open Idealize.ShloMosaic Idealize.ShloMosaic.ValueIdx Cert.LibRowDot

/-- The literal 2.0 and the literal 1.0, as the extended reals their words denote. -/
abbrev two : EReal := Ideal.ofBits .f32 0x40000000#32
abbrev one : EReal := Ideal.ofBits .f32 0x3F800000#32

/-- A vector of extended reals of length `n`, as a function of its rank-1 index. -/
abbrev Row (n : ℕ) : Type := (⟨1, ![n]⟩ : Shape).Idx → EReal

/-- The combined weight W + 2 · (B·A) at row `j`, column `i`. -/
def comb (A : Mat 16 4096) (B : Mat 4096 16) (W : Mat 4096 4096) (j i : Fin 4096) : EReal :=
  W (ix2 j i) + two * rowDot B A j i

/-- The scale of output column `j`: its magnitude over the Euclidean norm of row `j` of the combined weight. -/
def scale (A : Mat 16 4096) (B : Mat 4096 16) (W : Mat 4096 4096) (mag : Row 4096) (j : Fin 4096) : EReal :=
  Ideal.div (mag (ix1 j)) (Ideal.sqrt (∑ i : Fin 4096, comb A B W j i * comb A B W j i))

/-- x · Wᵀ at (t, j). -/
def baseDot (x : Mat 8192 4096) (W : Mat 4096 4096) (t : Fin 8192) (j : Fin 4096) : EReal :=
  ∑ k : Fin 4096, x (ix2 t k) * W (ix2 j k)

/-- x · Aᵀ at (t, r). -/
def lowDot (x : Mat 8192 4096) (A : Mat 16 4096) (t : Fin 8192) (r : Fin 16) : EReal :=
  ∑ k : Fin 4096, x (ix2 t k) * A (ix2 r k)

/-- (x · Aᵀ) · Bᵀ at (t, j). -/
def loraDot (x : Mat 8192 4096) (A : Mat 16 4096) (B : Mat 4096 16) (t : Fin 8192) (j : Fin 4096) : EReal :=
  ∑ r : Fin 16, lowDot x A t r * B (ix2 j r)

/-- THE RESULT, index by index. -/
def G (x : Mat 8192 4096) (A : Mat 16 4096) (B : Mat 4096 16) (W : Mat 4096 4096) (mag : Row 4096) : Mat 8192 4096 :=
  fun idx =>
    (scale A B W mag (idx 1) - one) * baseDot x W (idx 0) (idx 1)
      + (scale A B W mag (idx 1) * loraDot x A B (idx 0) (idx 1)) * two

/-- The same scale from the magnitude laid out as a 4096 × 1 column (what the first kernel region reads). -/
def scaleCol (A : Mat 16 4096) (B : Mat 4096 16) (W : Mat 4096 4096) (magc : Mat 4096 1) (j : Fin 4096) : EReal :=
  Ideal.div (magc (ix2 j (0 : Fin 1))) (Ideal.sqrt (∑ i : Fin 4096, comb A B W j i * comb A B W j i))

/-- The result with the scale of each output column given as a function (what the second kernel region computes
    from the scale row it is handed). -/
def Gs (x : Mat 8192 4096) (A : Mat 16 4096) (B : Mat 4096 16) (W : Mat 4096 4096) (s : Fin 4096 → EReal) : Mat 8192 4096 :=
  fun idx =>
    (s (idx 1) - one) * baseDot x W (idx 0) (idx 1) + (s (idx 1) * loraDot x A B (idx 0) (idx 1)) * two

theorem G_eq_Gs (x : Mat 8192 4096) (A : Mat 16 4096) (B : Mat 4096 16) (W : Mat 4096 4096) (mag : Row 4096) :
    G x A B W mag = Gs x A B W (scale A B W mag) := rfl

theorem scaleCol_of_col (A : Mat 16 4096) (B : Mat 4096 16) (W : Mat 4096 4096) (mag : Row 4096) (magc : Mat 4096 1)
    (h : ∀ j : Fin 4096, magc (ix2 j (0 : Fin 1)) = mag (ix1 j)) (j : Fin 4096) :
    scaleCol A B W magc j = scale A B W mag j := by
  unfold scaleCol scale; rw [h j]

/-- A kernel's matrix product of operands of any float formats into a zero accumulator, at the ideal values
    (where every format's values are the extended reals), is the row against the column. -/
theorem matmul_zero_apply' {n d h : ℕ} {φ₁ φ₂ : FTy} (D : DotDims ⟨2, ![n, d]⟩ ⟨2, ![d, h]⟩ ⟨2, ![n, h]⟩)
    (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ φ₁)
    (r : FVec Ideal ⟨2, ![d, h]⟩ φ₂) (j : (⟨2, ![n, h]⟩ : Shape).Idx) :
    FloatOps.matmul D prec l r (constant ⟨2, ![n, h]⟩ .f32 0x00000000#32) j
      = rowDot (l : Mat n d) (r : Mat d h) (j 0) (j 1) := by
  rw [Ideal.matmul_constant_zero_apply]
  exact sum_contr_eq_rowDot D hlc hrc hln hrn hlb hrb l r j

/-- A sum over 4096 columns is the sum, over eight consecutive blocks, of the sums over each block's 512 columns. -/
theorem sum_blocks (f : Fin 4096 → EReal) :
    ∑ k : Fin 4096, f k = ∑ b : Fin 8, ∑ k : Fin 512, f ⟨512 * b.val + k.val, by omega⟩ := by
  -- the pair (block, offset) ↦ offset + 512 · block is a bijection of Fin 8 × Fin 512 with Fin 4096
  rw [← Equiv.sum_comp (finProdFinEquiv : Fin 8 × Fin 512 ≃ Fin 4096) f, Fintype.sum_prod_type]
  refine Finset.sum_congr rfl fun b _ => Finset.sum_congr rfl fun k _ => congrArg f (Fin.ext ?_)
  show k.val + 512 * b.val = 512 * b.val + k.val
  exact Nat.add_comm _ _

end Cert.Dora

end
-- ==== Proof.PayAt.lean ====
/-
  The kernels' stored values read at an index, at the ideal values (where every float format's values are the
  extended reals and a change of format is the identity).

  The norm kernel stores, for a block of 256 rows of the combined weight, the row of scales: at (0, q) the
  magnitude of row q over the square root of the sum over the 4096 columns of the squares of W + 2·(B·A).
  The main kernel zeroes its two accumulators at the first step of the contraction grid, adds to them at every
  step the products of a block of 1024 rows of x with a block of 512 columns of W (of A) — the second operand
  enters the matrix unit transposed, so the contraction runs over the blocks' common second axis —, and at the
  last step stores (s − 1) · base + (s · (xa · Bᵀ)) · 2 with the scale row s broadcast down the rows.
-/
import proofs.«152894_j41712722379292_1_alg».proof.Proof.Gen.KernelIdeal.Skeleton
import proofs.«152894_j41712722379292_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dora.PayAt

open Cert.KernelIdeal Cert.KernelIdeal.Gen Idealize.ShloMosaic Idealize.ShloMosaic.ValueIdx Cert.LibRowDot Cert.Dora

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index of the lane sum over the 4096 columns: row `q` with column `k` put back. -/
theorem lift_row (q : Fin 256) (k : Fin 4096) :
    reduces_S256x4096_S256.lift (ix1 q) k = ix2 q k := by
  funext c
  match c with
  | ⟨0, _⟩ => exact Fin.ext rfl
  | ⟨1, _⟩ => exact Fin.ext rfl

/-- The first accumulator's initial value: zero everywhere. -/
theorem zero_pay1_at (j : S1024x1024.Idx) : k1_pay1 (F := Ideal) j = 0 := by
  unfold k1_pay1
  rw [shapeCast_self]
  exact Ideal.ofBits_zero_f32

/-- The second accumulator's initial value: zero everywhere. -/
theorem zero_pay2_at (j : S1024x16.Idx) : k1_pay2 (F := Ideal) j = 0 := by
  unfold k1_pay2
  rw [shapeCast_self]
  exact Ideal.ofBits_zero_f32

/-- One step of x · Wᵀ: the accumulator plus the products over the step's 512 columns. -/
theorem acc_pay4_at (vx vw : Vec Ideal S1024x512 .f32) (acc : Vec Ideal S1024x1024 .f32) (p q : Fin 1024) :
    k1_pay4 (F := Ideal) vx vw acc (ix2 p q) = acc (ix2 p q) + ∑ k : Fin 512, vx (ix2 p k) * vw (ix2 q k) := by
  unfold k1_pay4 k1_pay3
  dsimp only
  rw [shapeCast_self, addf_apply]
  refine congrArg (acc (ix2 p q) + ·) ?_
  refine (matmul_zero_apply' dot_S1024x512_S512x1024_S1024x1024_1_0_0_1_n_n rfl rfl rfl rfl rfl rfl none _ _
    (ix2 p q)).trans ?_
  unfold rowDot
  exact Finset.sum_congr rfl fun k _ => congrArg₂ (· * ·) rfl (transpose_ix2_apply _ _ k q)

/-- One step of x · Aᵀ: the accumulator plus the products over the step's 512 columns. -/
theorem acc_pay5_at (vx : Vec Ideal S1024x512 .f32) (va : Vec Ideal S16x512 .f32) (acc : Vec Ideal S1024x16 .f32)
    (p : Fin 1024) (r : Fin 16) :
    k1_pay5 (F := Ideal) vx va acc (ix2 p r) = acc (ix2 p r) + ∑ k : Fin 512, vx (ix2 p k) * va (ix2 r k) := by
  unfold k1_pay5 k1_pay3
  dsimp only
  rw [shapeCast_self, addf_apply]
  refine congrArg (acc (ix2 p r) + ·) ?_
  refine (matmul_zero_apply' dot_S1024x512_S512x16_S1024x16_1_0_0_1_n_n rfl rfl rfl rfl rfl rfl none _ _
    (ix2 p r)).trans ?_
  unfold rowDot
  exact Finset.sum_congr rfl fun k _ => congrArg₂ (· * ·) rfl (transpose_ix2_apply _ _ k r)

/-- The last step's stored value: (s − 1) · base + (s · (xa · Bᵀ)) · 2, the scale row broadcast down the rows. -/
theorem fin_pay6_at (vB xa : Vec Ideal S1024x16 .f32) (vs : Vec Ideal S1x1024 .f32) (base : Vec Ideal S1024x1024 .f32)
    (p q : Fin 1024) :
    k1_pay6 (F := Ideal) vB xa vs base (ix2 p q)
      = (vs (ix2 (0 : Fin 1) q) - one) * base (ix2 p q)
        + (vs (ix2 (0 : Fin 1) q) * ∑ r : Fin 16, xa (ix2 p r) * vB (ix2 q r)) * two := by
  unfold k1_pay6
  dsimp only
  rw [shapeCast_self]
  simp only [addf_apply, mulf_apply, broadcastTo_1b_ab_apply, subf_apply, broadcast_apply]
  have hmm : matmul (F := Ideal) dot_S1024x16_S16x1024_S1024x1024_1_0_0_1_n_n none
      (truncf (F := Ideal) .bf16 (xa : FVec Ideal S1024x16 .f32) bitsLt_bf16_f32)
      (transpose S16x1024 [1, 0] (truncf (F := Ideal) .bf16 (vB : FVec Ideal S1024x16 .f32) bitsLt_bf16_f32)
        transposes_S1024x16_p1_0_S16x1024)
      (constant (F := Ideal) S1024x1024 .f32 0x00000000#32) (ix2 p q)
        = ∑ r : Fin 16, xa (ix2 p r) * vB (ix2 q r) := by
    refine (matmul_zero_apply' dot_S1024x16_S16x1024_S1024x1024_1_0_0_1_n_n rfl rfl rfl rfl rfl rfl none _ _
      (ix2 p q)).trans ?_
    unfold rowDot
    exact Finset.sum_congr rfl fun r _ => congrArg₂ (· * ·) rfl (transpose_ix2_apply _ _ r q)
  rw [hmm]
  rfl

/-- The norm kernel's stored row of scales: at (0, q) the magnitude of row q over the Euclidean norm of row q of
    the combined weight W + 2 · (B·A). -/
theorem norm_pay_at (vB : Vec Ideal S256x16 .f32) (vA : Vec Ideal S16x4096 .f32) (vW : Vec Ideal S256x4096 .f32)
    (vM : Vec Ideal S256x1 .f32) (q : Fin 256) :
    k0_pay1 (F := Ideal) vB vA vW vM (ix2 (0 : Fin 1) q)
      = Ideal.div (vM (ix2 q (0 : Fin 1))) (Ideal.sqrt (∑ i : Fin 4096,
          (vW (ix2 q i) + two * rowDot vB vA q i) * (vW (ix2 q i) + two * rowDot vB vA q i))) := by
  unfold k0_pay1
  dsimp only
  refine (transpose_ix2_apply _ _ (0 : Fin 1) q).trans ?_
  rw [divf_apply, shapeCast_self]
  refine congrArg (Ideal.div (vM (ix2 q (0 : Fin 1)))) ?_
  refine congrArg Ideal.sqrt ?_
  refine (shapeCast_a_a1_apply _ _ q (0 : Fin 1)).trans ?_
  refine (Ideal.multiReduction_add_single _ _ _ _ _ (ix1 q)).trans ?_
  refine Finset.sum_congr rfl fun i _ => ?_
  have e := lift_row q i
  rw [e]
  have hm := matmul_zero_apply dot_S256x16_S16x4096_S256x4096_1_0_0_1_n_n rfl rfl rfl rfl rfl rfl
    (some .fp32) vB vA (ix2 q i)
  simp only [mulf_apply, addf_apply, broadcast_apply]
  exact congrArg (fun m => (vW (ix2 q i) + two * m) * (vW (ix2 q i) + two * m)) hm

end Cert.Dora.PayAt

end
-- ==== Proof.ValNorm.lean ====
/-
  The first kernel region's value at the ideal values. The region runs over sixteen grid points; at point t
  it reads rows 256·t … 256·t + 255 of the base weight W, of B and of the magnitude column, and all of A,
  and writes back one 1 × 256 row as columns 256·t … 256·t + 255 of the 1 × 4096 scale array. At column
  j = 256·t + q that row holds the magnitude of row j over the Euclidean norm of row j of W + 2 · (B·A):
  the scale of output column j. The sixteen blocks tile the array, so after the region the array holds the
  scale at every column.
-/
import proofs.«152894_j41712722379292_1_alg».proof.Proof.KI.Norm
import proofs.«152894_j41712722379292_1_alg».proof.Proof.PayAt
import proofs.«152894_j41712722379292_1_alg».proof.Proof.Spec
import Idealize.ShloMosaic.Lib.Pipeline.Value
import Idealize.ShloMosaic.Lib.ValueIdx

set_option maxRecDepth 16384

noncomputable section

open scoped BigOperators

namespace Cert.Dora.ValNorm

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.LibRowDot Cert.Dora

-- the TensorCore's buffer contents when the region is entered
variable (V : (c : Dev nD) → (b : Ref sig .tc) → Buf (Elt Ideal) ((c : Thread nD τ).loc b))

/-- The zero offsets of a whole-buffer rectangle, as the constant function. -/
theorem hz : (![0, 0] : Fin 2 → Nat) = fun _ => 0 := funext fun a => by fin_cases a <;> rfl

/-- The printed index maps, decided once over the sixteen grid points: the row blocks of W, of B and of the
    magnitude column move with the point, A stays whole, and the output's column block moves with the point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The grid has sixteen points. -/
theorem N_eq : cfg0.N = 16 := by decide +kernel

/-- The base-weight block at point t is rows 256·t … 256·t + 255 of W. -/
theorem blkW_apply (c : Dev nD) (t : Fin cfg0.N) (y : S256x4096.Idx) (k : S4096x4096.Idx)
    (hk0 : (k 0).val = 256 * t.val + (y 0).val) (hk1 : (k 1).val = (y 1).val) :
    (iblk0 V c 0 t : Vec Ideal S256x4096 .f32) y = (V c main_arg3 : S4096x4096.Idx → EReal) k := by
  obtain ⟨e0, e1, -⟩ := idx_facts t
  unfold iblk0
  rw [View.read_apply]
  show V c main_arg3 _ = V c main_arg3 _
  refine congrArg (V c main_arg3) ?_
  funext a
  apply Fin.ext
  match a with
  | ⟨0, _⟩ => show win0_0.index t 0 * 256 + 1 * (y 0).val = (k 0).val; rw [e0, hk0]; omega
  | ⟨1, _⟩ => show win0_0.index t 1 * 4096 + 1 * (y 1).val = (k 1).val; rw [e1, hk1]; omega

/-- The B block at point t is rows 256·t … 256·t + 255 of B. -/
theorem blkB_apply (c : Dev nD) (t : Fin cfg0.N) (y : S256x16.Idx) (k : S4096x16.Idx)
    (hk0 : (k 0).val = 256 * t.val + (y 0).val) (hk1 : (k 1).val = (y 1).val) :
    (iblk0 V c 1 t : Vec Ideal S256x16 .f32) y = (V c main_arg2 : S4096x16.Idx → EReal) k := by
  obtain ⟨-, -, e0, e1, -⟩ := idx_facts t
  unfold iblk0
  rw [View.read_apply]
  show V c main_arg2 _ = V c main_arg2 _
  refine congrArg (V c main_arg2) ?_
  funext a
  apply Fin.ext
  match a with
  | ⟨0, _⟩ => show win0_1.index t 0 * 256 + 1 * (y 0).val = (k 0).val; rw [e0, hk0]; omega
  | ⟨1, _⟩ => show win0_1.index t 1 * 16 + 1 * (y 1).val = (k 1).val; rw [e1, hk1]; omega

/-- The A block at every point is all of A. -/
theorem blkA_apply (c : Dev nD) (t : Fin cfg0.N) (y : S16x4096.Idx) :
    (iblk0 V c 2 t : Vec Ideal S16x4096 .f32) y = (V c main_arg1 : S16x4096.Idx → EReal) y := by
  obtain ⟨-, -, -, -, e0, e1, -⟩ := idx_facts t
  unfold iblk0
  rw [View.read_apply]
  show V c main_arg1 _ = V c main_arg1 _
  refine congrArg (V c main_arg1) ?_
  funext a
  apply Fin.ext
  match a with
  | ⟨0, _⟩ => show win0_2.index t 0 * 16 + 1 * (y 0).val = (y 0).val; rw [e0]; omega
  | ⟨1, _⟩ => show win0_2.index t 1 * 4096 + 1 * (y 1).val = (y 1).val; rw [e1]; omega

/-- The magnitude block at point t is rows 256·t … 256·t + 255 of the magnitude column. -/
theorem blkM_apply (c : Dev nD) (t : Fin cfg0.N) (y : S256x1.Idx) (k : S4096x1.Idx)
    (hk0 : (k 0).val = 256 * t.val + (y 0).val) (hk1 : (k 1).val = (y 1).val) :
    (iblk0 V c 3 t : Vec Ideal S256x1 .f32) y = (V c main_v0 : S4096x1.Idx → EReal) k := by
  obtain ⟨-, -, -, -, -, -, e0, e1, -⟩ := idx_facts t
  unfold iblk0
  rw [View.read_apply]
  show V c main_v0 _ = V c main_v0 _
  refine congrArg (V c main_v0) ?_
  funext a
  apply Fin.ext
  match a with
  | ⟨0, _⟩ => show win0_3.index t 0 * 256 + 1 * (y 0).val = (k 0).val; rw [e0, hk0]; omega
  | ⟨1, _⟩ => show win0_3.index t 1 * 1 + 1 * (y 1).val = (k 1).val; rw [e1, hk1]; omega

/-- What the body leaves in the output buffer, at column q of its one row: the magnitude of the block's row q
    over the Euclidean norm of the block's row q of W + 2 · (B·A). -/
theorem out_at (xW : Vec Ideal S256x4096 .f32) (xB : Vec Ideal S256x16 .f32) (xA : Vec Ideal S16x4096 .f32)
    (xM : Vec Ideal S256x1 .f32) (q : Fin 256) :
    out0_4 (F := Ideal) xW xB xA xM (ix2 (0 : Fin 1) q)
      = Ideal.div (xM (ix2 q (0 : Fin 1))) (Ideal.sqrt (∑ i : Fin 4096,
          (xW (ix2 q i) + two * rowDot xB xA q i) * (xW (ix2 q i) + two * rowDot xB xA q i))) := by
  unfold out0_4
  rw [View.canon_unit_zero hz]
  simp only [View.ld_unit_zero (S := S256x16) hz, View.ld_unit_zero (S := S16x4096) hz,
    View.ld_unit_zero (S := S256x4096) hz, View.ld_unit_zero (S := S256x1) hz]
  exact PayAt.norm_pay_at xB xA xW xM q

/-- With the four blocks being rows 256·t … 256·t + 255 of W, of B and of the magnitude column and all of A,
    that value is the scale of column 256·t + q. -/
theorem out_row (xW : Vec Ideal S256x4096 .f32) (xB : Vec Ideal S256x16 .f32) (xA : Vec Ideal S16x4096 .f32)
    (xM : Vec Ideal S256x1 .f32) (Am : Mat 16 4096) (Bm : Mat 4096 16) (Wm : Mat 4096 4096) (Mm : Mat 4096 1)
    (t : ℕ) (ht : t < 16)
    (hW : ∀ (q : Fin 256) (i : Fin 4096), xW (ix2 q i) = Wm (ix2 (⟨256 * t + q.val, by omega⟩ : Fin 4096) i))
    (hB : ∀ (q : Fin 256) (r : Fin 16), xB (ix2 q r) = Bm (ix2 (⟨256 * t + q.val, by omega⟩ : Fin 4096) r))
    (hA : ∀ (r : Fin 16) (i : Fin 4096), xA (ix2 r i) = Am (ix2 r i))
    (hM : ∀ q : Fin 256, xM (ix2 q (0 : Fin 1)) = Mm (ix2 (⟨256 * t + q.val, by omega⟩ : Fin 4096) (0 : Fin 1)))
    (q : Fin 256) :
    out0_4 (F := Ideal) xW xB xA xM (ix2 (0 : Fin 1) q)
      = scaleCol Am Bm Wm Mm (⟨256 * t + q.val, by omega⟩ : Fin 4096) := by
  rw [out_at]
  unfold scaleCol comb rowDot
  rw [hM q]
  refine congrArg (Ideal.div _) (congrArg Ideal.sqrt ?_)
  refine Finset.sum_congr rfl fun i _ => ?_
  have hd : ∑ k : Fin 16, xB (ix2 q k) * xA (ix2 k i)
      = ∑ k : Fin 16, Bm (ix2 (⟨256 * t + q.val, by omega⟩ : Fin 4096) k) * Am (ix2 k i) :=
    Finset.sum_congr rfl fun k _ => by rw [hB q k, hA k i]
  rw [hW q i, hd]

/-- The scale row: the 1 × 4096 array holding at column j the scale of output column j. -/
abbrev scaleRow (c : Dev nD) : S1x4096.Idx → EReal :=
  fun idx => scaleCol (V c main_arg1) (V c main_arg2) (V c main_arg3) (V c main_v0) (idx 1)

/-- WHAT POINT t WRITES BACK is block t of the scale row. -/
theorem flushed_eq (c : Dev nD) (t : Fin cfg0.N) (hf : (cfg0.win 4).flush t = true) :
    (dat0 (F := Ideal) V c).flushed 4 t = ((cfg0.win 4).blk t).view.read (Elt Ideal) (scaleRow V c) := by
  show (cfg0.win 4).cut (grid0.coords t) ((dat0 V c).after 4 t) = _
  rw [after0_4]
  obtain ⟨-, -, -, -, -, -, -, -, e0, e1⟩ := idx_facts t
  have htN : t.val < 16 := Nat.lt_of_lt_of_eq t.isLt N_eq
  funext y
  have hy1 : (y 1).val < 256 := (y 1).isLt
  have hy : (cfg0.win 4).xinj (grid0.coords t) y = ix2 (0 : Fin 1) (⟨(y 1).val, hy1⟩ : Fin 256) := by
    funext a; apply Fin.ext
    match a with
    | ⟨0, _⟩ => show (y 0).val = 0; have : (y 0).val < 1 := (y 0).isLt; omega
    | ⟨1, _⟩ => rfl
  show out0_4 (F := Ideal) (iblk0 V c 0 t) (iblk0 V c 1 t) (iblk0 V c 2 t) (iblk0 V c 3 t) ((cfg0.win 4).xinj (grid0.coords t) y) = _
  rw [hy, View.read_apply]
  refine (out_row _ _ _ _ (V c main_arg1) (V c main_arg2) (V c main_arg3) (V c main_v0) t.val htN
    (fun q i => blkW_apply V c t _ _ rfl rfl) (fun q r => blkB_apply V c t _ _ rfl rfl)
    (fun r i => blkA_apply V c t _) (fun q => blkM_apply V c t _ _ rfl rfl) _).trans ?_
  show scaleCol _ _ _ _ _ = scaleCol _ _ _ _ _
  refine congrArg (scaleCol (V c main_arg1) (V c main_arg2) (V c main_arg3) (V c main_v0)) (Fin.ext ?_)
  show 256 * t.val + (y 1).val = win0_4.index t 1 * 256 + 1 * (y 1).val
  rw [e1]; omega

/-- Every column of the scale row is in some point's block: column j in the block of point j / 256. -/
theorem cover (i : S1x4096.Idx) :
    ∃ t : Fin cfg0.N, (cfg0.win 4).flush t = true ∧ i ∈ ((cfg0.win 4).blk t).view.set := by
  have h0 : (i 0).val < 1 := (i 0).isLt
  have h1 : (i 1).val < 4096 := (i 1).isLt
  obtain ⟨t, ht⟩ : ∃ t : Fin cfg0.N, t.val = (i 1).val / 256 := ⟨⟨(i 1).val / 256, by rw [N_eq]; omega⟩, rfl⟩
  refine ⟨t, flush0_4 t, ?_⟩
  obtain ⟨-, -, -, -, -, -, -, -, e0, e1⟩ := idx_facts t
  show i ∈ ((View.whole main_v1).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [e0]; omega
  | ⟨1, _⟩ =>
    show win0_4.index t 1 * 256 ≤ (i 1).val ∧ (i 1).val < win0_4.index t 1 * 256 + 256
    rw [e1, ht]; omega

/-- THE SCALE ARRAY AFTER THE REGION: at column j the scale of output column j. -/
theorem norm_final (c : Dev nD) :
    (dat0 (F := Ideal) V c).arrAt 4 cfg0.N
      = (fun idx : S1x4096.Idx => scaleCol (V c main_arg1) (V c main_arg2) (V c main_arg3) (V c main_v0) (idx 1)) :=
  (dat0 (F := Ideal) V c).arrAt_eq_of_cover 4 (scaleRow V c) (flushed_eq V c) cover

end Cert.Dora.ValNorm

end
-- ==== Proof.Pieces.lean ====
/-
  What each control case of the two kernels leaves in its buffers, as the skeleton's payloads of the blocks it read.
  Every buffer is written whole, so what a case's stores leave is the payload of its last store; a load that follows a
  store of the same run reads that store's payload back. At the first step of the contraction both accumulators are
  first stored with zeros and then updated from them; at a later step they are updated from what the step before left;
  at the last step the output block is computed from the accumulators as just updated.
-/
import proofs.«152894_j41712722379292_1_alg».proof.Proof.KI.Norm
import proofs.«152894_j41712722379292_1_alg».proof.Proof.KI.MainBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offset of a whole-buffer rectangle, as the constant function. -/
theorem off_zero2 : (![0, 0] : Fin 2 → Nat) = fun _ => 0 := funext fun a => by fin_cases a <;> rfl

/-- The norm kernel's one store leaves the scale row computed from the four input blocks. -/
theorem out0_4_eq (xW : Vec F S256x4096 .f32) (xB : Vec F S256x16 .f32) (xA : Vec F S16x4096 .f32) (xM : Vec F S256x1 .f32) :
    out0_4 xW xB xA xM = k0_pay1 xB xA xW xM := by
  unfold out0_4
  rw [View.canon_unit_zero off_zero2]
  simp only [View.ld_unit_zero (S := S256x4096) off_zero2, View.ld_unit_zero (S := S256x16) off_zero2,
    View.ld_unit_zero (S := S16x4096) off_zero2, View.ld_unit_zero (S := S256x1) off_zero2]

/-- First step, the 1024 × 1024 accumulator: zeroed, then one block's products added onto the zeros. -/
theorem soutA0_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i)
    (x0 x1 : Vec F S1024x512 .f32) (x2 : Vec F S16x512 .f32) :
    sout1_A_0 c i arg3 harg3 arg4 harg4 arg5 harg5 arg6 harg6 arg7 harg7 arg8 harg8 arg9 harg9 arg10 harg10 hc0 hc1 x0 x1 x2 = k1_pay4 x0 x1 (k1_pay1 (F := F)) := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2)]
  unfold kernelRun1_A
  dsimp only
  try sl_unfold_words
  rw [View.canon_cons_unit_zero (S := S1024x1024) off_zero2, View.readCov_unit_zero (S := S1024x1024) _ off_zero2]
  simp only [View.readAt_eq_ld, harg3.read_unread, harg4.read_unread, harg5.read_unread, harg6.read_unread,
    harg7.read_unread, harg8.read_unread, View.ld_unit_zero (S := S1024x512) off_zero2, View.ld_unit_zero (S := S16x512) off_zero2,
    View.ld_unit_zero (S := S1024x16) off_zero2, View.ld_unit_zero (S := S1x1024) off_zero2, View.ld_unit_zero (S := S1024x1024) off_zero2]

/-- First step, the 1024 × 16 accumulator: zeroed, then one block's products added onto the zeros. -/
theorem soutA1_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond1_0 i) (hc1 : ¬cond1_1 i)
    (x0 x1 : Vec F S1024x512 .f32) (x2 : Vec F S16x512 .f32) :
    sout1_A_1 c i arg3 harg3 arg4 harg4 arg5 harg5 arg6 harg6 arg7 harg7 arg8 harg8 arg9 harg9 arg10 harg10 hc0 hc1 x0 x1 x2 = k1_pay5 x0 x2 (k1_pay2 (F := F)) := by
  unfold sout1_A_1
  rw [View.read_writes_eq_canon _ _ _ (scover1_A_1 c i arg3 harg3 arg4 harg4 arg5 harg5 arg6 harg6 arg7 harg7 arg8 harg8 arg9 harg9 arg10 harg10 hc0 hc1 x0 x1 x2)]
  unfold kernelRun1_A
  dsimp only
  try sl_unfold_words
  rw [View.canon_cons_unit_zero (S := S1024x16) off_zero2, View.readCov_unit_zero (S := S1024x16) _ off_zero2]
  simp only [View.readAt_eq_ld, harg3.read_unread, harg4.read_unread, harg5.read_unread, harg6.read_unread,
    harg7.read_unread, harg8.read_unread, View.ld_unit_zero (S := S1024x512) off_zero2, View.ld_unit_zero (S := S16x512) off_zero2,
    View.ld_unit_zero (S := S1024x16) off_zero2, View.ld_unit_zero (S := S1x1024) off_zero2, View.ld_unit_zero (S := S1024x1024) off_zero2]

/-- A middle step, the 1024 × 1024 accumulator: one block's products added onto what the step before left. -/
theorem soutB0_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i)
    (x0 x1 : Vec F S1024x512 .f32) (x2 : Vec F S16x512 .f32) (xs0 : Vec F S1024x1024 .f32) (xs1 : Vec F S1024x16 .f32) :
    sout1_B_0 c i arg3 harg3 arg4 harg4 arg5 harg5 arg6 harg6 arg7 harg7 arg8 harg8 arg9 harg9 arg10 harg10 hc0 hc1 x0 x1 x2 xs0 xs1 = k1_pay4 x0 x1 xs0 := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 xs0 xs1)]
  unfold kernelRun1_B
  dsimp only
  try sl_unfold_words
  rw [View.canon_unit_zero off_zero2]
  simp only [View.readAt_eq_ld, harg3.read_unread, harg4.read_unread, harg5.read_unread, harg6.read_unread,
    harg7.read_unread, harg8.read_unread, harg9.read_unread, harg10.read_unread,
    View.ld_unit_zero (S := S1024x512) off_zero2, View.ld_unit_zero (S := S16x512) off_zero2,
    View.ld_unit_zero (S := S1024x16) off_zero2, View.ld_unit_zero (S := S1x1024) off_zero2, View.ld_unit_zero (S := S1024x1024) off_zero2]

/-- A middle step, the 1024 × 16 accumulator: one block's products added onto what the step before left. -/
theorem soutB1_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : ¬cond1_1 i)
    (x0 x1 : Vec F S1024x512 .f32) (x2 : Vec F S16x512 .f32) (xs0 : Vec F S1024x1024 .f32) (xs1 : Vec F S1024x16 .f32) :
    sout1_B_1 c i arg3 harg3 arg4 harg4 arg5 harg5 arg6 harg6 arg7 harg7 arg8 harg8 arg9 harg9 arg10 harg10 hc0 hc1 x0 x1 x2 xs0 xs1 = k1_pay5 x0 x2 xs1 := by
  unfold sout1_B_1
  rw [View.read_writes_eq_canon _ _ _ (scover1_B_1 c i arg3 harg3 arg4 harg4 arg5 harg5 arg6 harg6 arg7 harg7 arg8 harg8 arg9 harg9 arg10 harg10 hc0 hc1 x0 x1 x2 xs0 xs1)]
  unfold kernelRun1_B
  dsimp only
  try sl_unfold_words
  rw [View.canon_unit_zero off_zero2]
  simp only [View.readAt_eq_ld, harg3.read_unread, harg4.read_unread, harg5.read_unread, harg6.read_unread,
    harg7.read_unread, harg8.read_unread, harg9.read_unread, harg10.read_unread,
    View.ld_unit_zero (S := S1024x512) off_zero2, View.ld_unit_zero (S := S16x512) off_zero2,
    View.ld_unit_zero (S := S1024x16) off_zero2, View.ld_unit_zero (S := S1x1024) off_zero2, View.ld_unit_zero (S := S1024x1024) off_zero2]

/-- The last step, the 1024 × 1024 accumulator: updated as at a middle step. -/
theorem soutC0_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i)
    (x0 x1 : Vec F S1024x512 .f32) (x2 : Vec F S16x512 .f32) (x3 : Vec F S1024x16 .f32) (x4 : Vec F S1x1024 .f32)
    (xs0 : Vec F S1024x1024 .f32) (xs1 : Vec F S1024x16 .f32) :
    sout1_C_0 c i arg3 harg3 arg4 harg4 arg5 harg5 arg6 harg6 arg7 harg7 arg8 harg8 arg9 harg9 arg10 harg10 hc0 hc1 x0 x1 x2 x3 x4 xs0 xs1 = k1_pay4 x0 x1 xs0 := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 x3 x4 xs0 xs1)]
  unfold kernelRun1_C
  dsimp only
  try sl_unfold_words
  rw [View.canon_unit_zero off_zero2]
  simp only [View.readAt_eq_ld, harg3.read_unread, harg4.read_unread, harg5.read_unread, harg6.read_unread,
    harg7.read_unread, harg8.read_unread, harg9.read_unread, harg10.read_unread,
    View.ld_unit_zero (S := S1024x512) off_zero2, View.ld_unit_zero (S := S16x512) off_zero2,
    View.ld_unit_zero (S := S1024x16) off_zero2, View.ld_unit_zero (S := S1x1024) off_zero2, View.ld_unit_zero (S := S1024x1024) off_zero2]

/-- The last step, the 1024 × 16 accumulator: updated as at a middle step. -/
theorem soutC1_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i)
    (x0 x1 : Vec F S1024x512 .f32) (x2 : Vec F S16x512 .f32) (x3 : Vec F S1024x16 .f32) (x4 : Vec F S1x1024 .f32)
    (xs0 : Vec F S1024x1024 .f32) (xs1 : Vec F S1024x16 .f32) :
    sout1_C_1 c i arg3 harg3 arg4 harg4 arg5 harg5 arg6 harg6 arg7 harg7 arg8 harg8 arg9 harg9 arg10 harg10 hc0 hc1 x0 x1 x2 x3 x4 xs0 xs1 = k1_pay5 x0 x2 xs1 := by
  unfold sout1_C_1
  rw [View.read_writes_eq_canon _ _ _ (scover1_C_1 c i arg3 harg3 arg4 harg4 arg5 harg5 arg6 harg6 arg7 harg7 arg8 harg8 arg9 harg9 arg10 harg10 hc0 hc1 x0 x1 x2 x3 x4 xs0 xs1)]
  unfold kernelRun1_C
  dsimp only
  try sl_unfold_words
  rw [View.canon_unit_zero off_zero2]
  simp only [View.readAt_eq_ld, harg3.read_unread, harg4.read_unread, harg5.read_unread, harg6.read_unread,
    harg7.read_unread, harg8.read_unread, harg9.read_unread, harg10.read_unread,
    View.ld_unit_zero (S := S1024x512) off_zero2, View.ld_unit_zero (S := S16x512) off_zero2,
    View.ld_unit_zero (S := S1024x16) off_zero2, View.ld_unit_zero (S := S1x1024) off_zero2, View.ld_unit_zero (S := S1024x1024) off_zero2]

/-- The last step, the output block: computed from the two accumulators as this step has just updated them. -/
theorem outC5_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond1_0 i) (hc1 : cond1_1 i)
    (x0 x1 : Vec F S1024x512 .f32) (x2 : Vec F S16x512 .f32) (x3 : Vec F S1024x16 .f32) (x4 : Vec F S1x1024 .f32)
    (xs0 : Vec F S1024x1024 .f32) (xs1 : Vec F S1024x16 .f32) :
    out1_C_5 c i arg3 harg3 arg4 harg4 arg5 harg5 arg6 harg6 arg7 harg7 arg8 harg8 arg9 harg9 arg10 harg10 hc0 hc1 x0 x1 x2 x3 x4 xs0 xs1 = k1_pay6 x3 (k1_pay5 x0 x2 xs1) x4 (k1_pay4 x0 x1 xs0) := by
  unfold out1_C_5
  rw [View.read_writes_eq_canon _ _ _ (cover1_C_5 c i arg3 harg3 arg4 harg4 arg5 harg5 arg6 harg6 arg7 harg7 arg8 harg8 arg9 harg9 arg10 harg10 hc0 hc1 x0 x1 x2 x3 x4 xs0 xs1)]
  unfold kernelRun1_C
  dsimp only
  try sl_unfold_words
  rw [View.canon_unit_zero off_zero2, View.readCov_unit_zero (S := S1024x16) _ off_zero2,
    View.readCov_unit_zero (S := S1024x1024) _ off_zero2]
  simp only [View.readAt_eq_ld, harg3.read_unread, harg4.read_unread, harg5.read_unread, harg6.read_unread,
    harg7.read_unread, harg8.read_unread, harg9.read_unread, harg10.read_unread,
    View.ld_unit_zero (S := S1024x512) off_zero2, View.ld_unit_zero (S := S16x512) off_zero2,
    View.ld_unit_zero (S := S1024x16) off_zero2, View.ld_unit_zero (S := S1x1024) off_zero2, View.ld_unit_zero (S := S1024x1024) off_zero2]

end Cert.KernelIdeal.Hand

end
-- ==== Proof.ValMain.lean ====
/-
  The second kernel region's value at the ideal values. Grid point n has block coordinates i = n / 32 (rows of x),
  j = (n / 8) mod 4 (output columns) and k = n mod 8 (the 512-column block of the contraction). After point n the
  1024 × 1024 accumulator holds, at (p, q), the sum over the first 512·(k + 1) contraction columns of
  x(1024 i + p, ·) · W(1024 j + q, ·), and the 1024 × 16 accumulator the same with A(r, ·): at k = 0 the reset gives zero
  plus the first block's sum, and each later point adds its own block's sum to what the point before left. At k = 7
  the sums are over all 4096 columns, and the block stored and written back is the specification's result, with the
  scale of column 1024 j + q read from the scale row the region was handed. The 32 written-back blocks tile the
  8192 × 4096 result, so the result array ends at the specification's function.
-/
import proofs.«152894_j41712722379292_1_alg».proof.Proof.KI.MainBody
import proofs.«152894_j41712722379292_1_alg».proof.Proof.Pieces
import proofs.«152894_j41712722379292_1_alg».proof.Proof.PayAt
import proofs.«152894_j41712722379292_1_alg».proof.Proof.Spec
import Idealize.ShloMosaic.Lib.Pipeline.Value
import Idealize.ShloMosaic.Lib.ValueIdx

set_option maxRecDepth 16384

noncomputable section

open scoped BigOperators

namespace Cert.Dora.ValMain

open Idealize.ShloMosaic Idealize.ShloMosaic.TcCoe Idealize.SL.Sem
open Idealize.ShloMosaic.Pipeline (Dat)
open Idealize.ShloMosaic.ValueIdx Cert.LibRowDot Cert.Dora
open Cert.KernelIdeal Cert.KernelIdeal.Gen Cert.KernelIdeal.Hand

/-! ## Partial sums over the first n of 4096 contraction columns -/

/-- A function on the 4096 columns, extended by zero to every natural number. -/
def ext0 (f : Fin 4096 → EReal) (x : ℕ) : EReal := if h : x < 4096 then f ⟨x, h⟩ else 0

/-- The sum of `f` over the columns below `n`. -/
def psum (f : Fin 4096 → EReal) (n : ℕ) : EReal := ∑ x ∈ Finset.range n, ext0 f x

theorem psum_zero (f : Fin 4096 → EReal) : psum f 0 = 0 := by
  unfold psum; rw [Finset.range_zero, Finset.sum_empty]

/-- One more block of 512 columns. -/
theorem psum_step (f : Fin 4096 → EReal) (k : ℕ) (hk : 512 * k + 512 ≤ 4096) :
    psum f (512 * k + 512) = psum f (512 * k) + ∑ kk : Fin 512, f ⟨512 * k + kk.val, by have := kk.isLt; omega⟩ := by
  unfold psum
  rw [Finset.sum_range_add]
  refine congrArg (_ + ·) ?_
  rw [Finset.sum_range]
  refine Finset.sum_congr rfl fun kk _ => ?_
  unfold ext0
  rw [dif_pos (by have := kk.isLt; omega)]

/-- All 4096 columns. -/
theorem psum_full (f : Fin 4096 → EReal) : psum f 4096 = ∑ kf : Fin 4096, f kf := by
  unfold psum
  rw [Finset.sum_range]
  refine Finset.sum_congr rfl fun kf _ => ?_
  unfold ext0
  rw [dif_pos kf.isLt]

section Value

variable (V : (c : Dev nD) → (b : Ref sig .tc) → Buf (Elt Ideal) ((c : Thread nD τ).loc b)) (c : Dev nD)

/-- The five arrays the region reads, as the region finds them. -/
abbrev Xm : Mat 8192 4096 := V c main_arg0
abbrev Am : Mat 16 4096 := V c main_arg1
abbrev Bm : Mat 4096 16 := V c main_arg2
abbrev Wm : Mat 4096 4096 := V c main_arg3
abbrev Sm : Mat 1 4096 := V c main_v1
/-- The scale of output column `j`, read from the scale row. -/
abbrev sOf : Fin 4096 → EReal := fun j => Sm V c (ix2 (0 : Fin 1) j)

/-- The input blocks at a point, at their literal types. -/
abbrev xblk (t : Fin cfg1.N) : Vec Ideal S1024x512 .f32 := iblk1 V c 0 t
abbrev wblk (t : Fin cfg1.N) : Vec Ideal S1024x512 .f32 := iblk1 V c 1 t
abbrev ablk (t : Fin cfg1.N) : Vec Ideal S16x512 .f32 := iblk1 V c 2 t
abbrev bblk (t : Fin cfg1.N) : Vec Ideal S1024x16 .f32 := iblk1 V c 3 t
abbrev sblk (t : Fin cfg1.N) : Vec Ideal S1x1024 .f32 := iblk1 V c 4 t

/-! ## The printed index maps, decided over the grid -/

theorem idx1 : ∀ t : Fin cfg1.N,
    win1_0.index t (0 : Fin 2) = t.val / 32 ∧ win1_0.index t (1 : Fin 2) = t.val % 8
    ∧ win1_1.index t (0 : Fin 2) = (t.val / 8) % 4 ∧ win1_1.index t (1 : Fin 2) = t.val % 8
    ∧ win1_2.index t (0 : Fin 2) = 0 ∧ win1_2.index t (1 : Fin 2) = t.val % 8
    ∧ win1_3.index t (0 : Fin 2) = (t.val / 8) % 4 ∧ win1_3.index t (1 : Fin 2) = 0
    ∧ win1_4.index t (0 : Fin 2) = 0 ∧ win1_4.index t (1 : Fin 2) = (t.val / 8) % 4
    ∧ win1_5.index t (0 : Fin 2) = t.val / 32 ∧ win1_5.index t (1 : Fin 2) = (t.val / 8) % 4 :=
  (by decide +kernel : ∀ t : Fin grid1.N, _)

/-! ## Each block as rows and columns of its array -/

theorem xblk_at (t : Fin cfg1.N) (y : S1024x512.Idx) (R : Fin 8192) (K : Fin 4096)
    (hR : R.val = 1024 * (t.val / 32) + (y 0).val) (hK : K.val = 512 * (t.val % 8) + (y 1).val) :
    xblk V c t y = Xm V c (ix2 R K) := by
  obtain ⟨e0, e1, -⟩ := idx1 t
  unfold xblk iblk1
  rw [View.read_apply]
  show V c main_arg0 _ = V c main_arg0 _
  refine congrArg (V c main_arg0) (funext fun a => Fin.ext ?_)
  match a with
  | ⟨0, _⟩ => show win1_0.index t (0 : Fin 2) * 1024 + 1 * (y 0).val = R.val; rw [e0, hR]; omega
  | ⟨1, _⟩ => show win1_0.index t (1 : Fin 2) * 512 + 1 * (y 1).val = K.val; rw [e1, hK]; omega

theorem wblk_at (t : Fin cfg1.N) (y : S1024x512.Idx) (C : Fin 4096) (K : Fin 4096)
    (hC : C.val = 1024 * ((t.val / 8) % 4) + (y 0).val) (hK : K.val = 512 * (t.val % 8) + (y 1).val) :
    wblk V c t y = Wm V c (ix2 C K) := by
  obtain ⟨-, -, e0, e1, -⟩ := idx1 t
  unfold wblk iblk1
  rw [View.read_apply]
  show V c main_arg3 _ = V c main_arg3 _
  refine congrArg (V c main_arg3) (funext fun a => Fin.ext ?_)
  match a with
  | ⟨0, _⟩ => show win1_1.index t (0 : Fin 2) * 1024 + 1 * (y 0).val = C.val; rw [e0, hC]; omega
  | ⟨1, _⟩ => show win1_1.index t (1 : Fin 2) * 512 + 1 * (y 1).val = K.val; rw [e1, hK]; omega

theorem ablk_at (t : Fin cfg1.N) (y : S16x512.Idx) (r : Fin 16) (K : Fin 4096)
    (hr : r.val = (y 0).val) (hK : K.val = 512 * (t.val % 8) + (y 1).val) :
    ablk V c t y = Am V c (ix2 r K) := by
  obtain ⟨-, -, -, -, e0, e1, -⟩ := idx1 t
  unfold ablk iblk1
  rw [View.read_apply]
  show V c main_arg1 _ = V c main_arg1 _
  refine congrArg (V c main_arg1) (funext fun a => Fin.ext ?_)
  match a with
  | ⟨0, _⟩ => show win1_2.index t (0 : Fin 2) * 16 + 1 * (y 0).val = r.val; rw [e0, hr]; omega
  | ⟨1, _⟩ => show win1_2.index t (1 : Fin 2) * 512 + 1 * (y 1).val = K.val; rw [e1, hK]; omega

theorem bblk_at (t : Fin cfg1.N) (y : S1024x16.Idx) (C : Fin 4096) (r : Fin 16)
    (hC : C.val = 1024 * ((t.val / 8) % 4) + (y 0).val) (hr : r.val = (y 1).val) :
    bblk V c t y = Bm V c (ix2 C r) := by
  obtain ⟨-, -, -, -, -, -, e0, e1, -⟩ := idx1 t
  unfold bblk iblk1
  rw [View.read_apply]
  show V c main_arg2 _ = V c main_arg2 _
  refine congrArg (V c main_arg2) (funext fun a => Fin.ext ?_)
  match a with
  | ⟨0, _⟩ => show win1_3.index t (0 : Fin 2) * 1024 + 1 * (y 0).val = C.val; rw [e0, hC]; omega
  | ⟨1, _⟩ => show win1_3.index t (1 : Fin 2) * 16 + 1 * (y 1).val = r.val; rw [e1, hr]; omega

theorem sblk_at (t : Fin cfg1.N) (y : S1x1024.Idx) (C : Fin 4096)
    (hC : C.val = 1024 * ((t.val / 8) % 4) + (y 1).val) :
    sblk V c t y = sOf V c C := by
  obtain ⟨-, -, -, -, -, -, -, -, e0, e1, -⟩ := idx1 t
  unfold sblk iblk1
  rw [View.read_apply]
  show V c main_v1 _ = V c main_v1 _
  refine congrArg (V c main_v1) (funext fun a => Fin.ext ?_)
  have h0' : (y 0).val < 1 := (y 0).isLt
  have h0 : (y 0).val = 0 := by omega
  match a with
  | ⟨0, _⟩ => show win1_4.index t (0 : Fin 2) * 1 + 1 * (y 0).val = 0; rw [e0, h0]
  | ⟨1, _⟩ => show win1_4.index t (1 : Fin 2) * 1024 + 1 * (y 1).val = C.val; rw [e1, hC]; omega

/-! ## What each case leaves, over the named blocks -/

theorem step_first (t : Fin cfg1.N) (h0 : t.val % 8 = 0) :
    (outsAt1 V c t.val t.isLt).2.1 = k1_pay4 (xblk V c t) (wblk V c t) (k1_pay1 (F := Ideal))
    ∧ (outsAt1 V c t.val t.isLt).2.2 = k1_pay5 (xblk V c t) (ablk V c t) (k1_pay2 (F := Ideal)) := by
  have h1 : ¬t.val % 8 = 7 := by omega
  rw [outsAt1_A V c t h0 h1]
  dsimp only
  exact ⟨soutA0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t),
    soutA1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t)⟩

theorem step_later (t : Fin cfg1.N) (h0 : ¬t.val % 8 = 0) :
    (outsAt1 V c t.val t.isLt).2.1 = k1_pay4 (xblk V c t) (wblk V c t) (outsAt1 V c (t.val - 1) (Nat.lt_of_le_of_lt (Nat.sub_le _ _) t.isLt)).2.1
    ∧ (outsAt1 V c t.val t.isLt).2.2 = k1_pay5 (xblk V c t) (ablk V c t) (outsAt1 V c (t.val - 1) (Nat.lt_of_le_of_lt (Nat.sub_le _ _) t.isLt)).2.2 := by
  by_cases h1 : t.val % 8 = 7
  · rw [outsAt1_C V c t h0 h1]
    dsimp only
    exact ⟨soutC0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
      soutC1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2⟩
  · rw [outsAt1_B V c t h0 h1]
    dsimp only
    exact ⟨soutB0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      soutB1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2⟩

theorem step_out (t : Fin cfg1.N) (h7 : t.val % 8 = 7) :
    (outsAt1 V c t.val t.isLt).1 = k1_pay6 (bblk V c t) (outsAt1 V c t.val t.isLt).2.2 (sblk V c t) (outsAt1 V c t.val t.isLt).2.1 := by
  have h0 : ¬t.val % 8 = 0 := by omega
  have h1 : t.val % 8 = 7 := h7
  obtain ⟨e0, e1⟩ := step_later V c t h0
  rw [e0, e1, outsAt1_C V c t h0 h1]
  dsimp only
  exact outC5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

/-! ## The accumulators after each point -/

/-- One block's partial products, as the summand at the block's columns. -/
theorem block_sum_w (t : Fin cfg1.N) (p q : Fin 1024) (R : Fin 8192) (C : Fin 4096)
    (hR : R.val = 1024 * (t.val / 32) + p.val) (hC : C.val = 1024 * ((t.val / 8) % 4) + q.val) :
    ∑ kk : Fin 512, xblk V c t (ix2 p kk) * wblk V c t (ix2 q kk)
      = ∑ kk : Fin 512, (fun kf : Fin 4096 => Xm V c (ix2 R kf) * Wm V c (ix2 C kf)) ⟨512 * (t.val % 8) + kk.val, by have := kk.isLt; omega⟩ :=
  Finset.sum_congr rfl fun kk _ => by
    rw [xblk_at V c t (ix2 p kk) R ⟨512 * (t.val % 8) + kk.val, by have := kk.isLt; omega⟩ hR rfl,
      wblk_at V c t (ix2 q kk) C ⟨512 * (t.val % 8) + kk.val, by have := kk.isLt; omega⟩ hC rfl]

theorem block_sum_a (t : Fin cfg1.N) (p : Fin 1024) (r : Fin 16) (R : Fin 8192)
    (hR : R.val = 1024 * (t.val / 32) + p.val) :
    ∑ kk : Fin 512, xblk V c t (ix2 p kk) * ablk V c t (ix2 r kk)
      = ∑ kk : Fin 512, (fun kf : Fin 4096 => Xm V c (ix2 R kf) * Am V c (ix2 r kf)) ⟨512 * (t.val % 8) + kk.val, by have := kk.isLt; omega⟩ :=
  Finset.sum_congr rfl fun kk _ => by
    rw [xblk_at V c t (ix2 p kk) R ⟨512 * (t.val % 8) + kk.val, by have := kk.isLt; omega⟩ hR rfl,
      ablk_at V c t (ix2 r kk) r ⟨512 * (t.val % 8) + kk.val, by have := kk.isLt; omega⟩ rfl rfl]

/-- THE ACCUMULATION, by induction on the point. -/
theorem acc_inv : ∀ (n : ℕ) (hn : n < cfg1.N),
    (∀ (p q : Fin 1024) (R : Fin 8192) (C : Fin 4096), R.val = 1024 * (n / 32) + p.val → C.val = 1024 * ((n / 8) % 4) + q.val →
        (outsAt1 V c n hn).2.1 (ix2 p q) = psum (fun kf : Fin 4096 => Xm V c (ix2 R kf) * Wm V c (ix2 C kf)) (512 * (n % 8) + 512))
    ∧ (∀ (p : Fin 1024) (r : Fin 16) (R : Fin 8192), R.val = 1024 * (n / 32) + p.val →
        (outsAt1 V c n hn).2.2 (ix2 p r) = psum (fun kf : Fin 4096 => Xm V c (ix2 R kf) * Am V c (ix2 r kf)) (512 * (n % 8) + 512)) := by
  intro n
  induction n with
  | zero =>
    intro hn
    obtain ⟨e0, e1⟩ := step_first V c ⟨0, hn⟩ rfl
    refine ⟨fun p q R C hR hC => ?_, fun p r R hR => ?_⟩
    · refine (congrFun e0 (ix2 p q)).trans ?_
      refine (PayAt.acc_pay4_at (xblk V c ⟨0, hn⟩) (wblk V c ⟨0, hn⟩) _ p q).trans ?_
      rw [PayAt.zero_pay1_at, zero_add, block_sum_w V c ⟨0, hn⟩ p q R C hR hC]
      have hs := psum_step (fun kf : Fin 4096 => Xm V c (ix2 R kf) * Wm V c (ix2 C kf)) 0 (by omega)
      rw [show psum (fun kf : Fin 4096 => Xm V c (ix2 R kf) * Wm V c (ix2 C kf)) (512 * 0) = 0 from psum_zero _, zero_add] at hs
      exact hs.symm
    · refine (congrFun e1 (ix2 p r)).trans ?_
      refine (PayAt.acc_pay5_at (xblk V c ⟨0, hn⟩) (ablk V c ⟨0, hn⟩) _ p r).trans ?_
      rw [PayAt.zero_pay2_at, zero_add, block_sum_a V c ⟨0, hn⟩ p r R hR]
      have hs := psum_step (fun kf : Fin 4096 => Xm V c (ix2 R kf) * Am V c (ix2 r kf)) 0 (by omega)
      rw [show psum (fun kf : Fin 4096 => Xm V c (ix2 R kf) * Am V c (ix2 r kf)) (512 * 0) = 0 from psum_zero _, zero_add] at hs
      exact hs.symm
  | succ n ih =>
    intro hn
    have hN : n + 1 < 256 := lt_of_lt_of_eq hn (show cfg1.N = 256 from N_1)
    by_cases h0 : (n + 1) % 8 = 0
    · obtain ⟨e0, e1⟩ := step_first V c ⟨n + 1, hn⟩ h0
      refine ⟨fun p q R C hR hC => ?_, fun p r R hR => ?_⟩
      · refine (congrFun e0 (ix2 p q)).trans ?_
        refine (PayAt.acc_pay4_at (xblk V c ⟨n + 1, hn⟩) (wblk V c ⟨n + 1, hn⟩) _ p q).trans ?_
        rw [PayAt.zero_pay1_at, zero_add, block_sum_w V c ⟨n + 1, hn⟩ p q R C hR hC]
        have hs := psum_step (fun kf : Fin 4096 => Xm V c (ix2 R kf) * Wm V c (ix2 C kf)) ((n + 1) % 8) (by omega)
        rw [show psum (fun kf : Fin 4096 => Xm V c (ix2 R kf) * Wm V c (ix2 C kf)) (512 * ((n + 1) % 8)) = 0 from by rw [h0]; exact psum_zero _, zero_add] at hs
        exact hs.symm
      · refine (congrFun e1 (ix2 p r)).trans ?_
        refine (PayAt.acc_pay5_at (xblk V c ⟨n + 1, hn⟩) (ablk V c ⟨n + 1, hn⟩) _ p r).trans ?_
        rw [PayAt.zero_pay2_at, zero_add, block_sum_a V c ⟨n + 1, hn⟩ p r R hR]
        have hs := psum_step (fun kf : Fin 4096 => Xm V c (ix2 R kf) * Am V c (ix2 r kf)) ((n + 1) % 8) (by omega)
        rw [show psum (fun kf : Fin 4096 => Xm V c (ix2 R kf) * Am V c (ix2 r kf)) (512 * ((n + 1) % 8)) = 0 from by rw [h0]; exact psum_zero _, zero_add] at hs
        exact hs.symm
    · obtain ⟨e0, e1⟩ := step_later V c ⟨n + 1, hn⟩ h0
      obtain ⟨ih0, ih1⟩ := ih (Nat.lt_of_succ_lt hn)
      have hk : n % 8 + 1 = (n + 1) % 8 := by omega
      have hi : n / 32 = (n + 1) / 32 := by omega
      have hj : (n / 8) % 4 = ((n + 1) / 8) % 4 := by omega
      refine ⟨fun p q R C hR hC => ?_, fun p r R hR => ?_⟩
      · refine (congrFun e0 (ix2 p q)).trans ?_
        refine (PayAt.acc_pay4_at (xblk V c ⟨n + 1, hn⟩) (wblk V c ⟨n + 1, hn⟩) _ p q).trans ?_
        rw [block_sum_w V c ⟨n + 1, hn⟩ p q R C hR hC]
        have hprev := ih0 p q R C (by rw [hi]; exact hR) (by rw [hj]; exact hC)
        have hs := psum_step (fun kf : Fin 4096 => Xm V c (ix2 R kf) * Wm V c (ix2 C kf)) ((n + 1) % 8) (by omega)
        rw [show 512 * (n % 8) + 512 = 512 * ((n + 1) % 8) from by omega] at hprev
        exact (congrArg (· + _) hprev).trans hs.symm
      · refine (congrFun e1 (ix2 p r)).trans ?_
        refine (PayAt.acc_pay5_at (xblk V c ⟨n + 1, hn⟩) (ablk V c ⟨n + 1, hn⟩) _ p r).trans ?_
        rw [block_sum_a V c ⟨n + 1, hn⟩ p r R hR]
        have hprev := ih1 p r R (by rw [hi]; exact hR)
        have hs := psum_step (fun kf : Fin 4096 => Xm V c (ix2 R kf) * Am V c (ix2 r kf)) ((n + 1) % 8) (by omega)
        rw [show 512 * (n % 8) + 512 = 512 * ((n + 1) % 8) from by omega] at hprev
        exact (congrArg (· + _) hprev).trans hs.symm

/-! ## The stored block at k = 7 is the specification's -/

theorem out_at (t : Fin cfg1.N) (h7 : t.val % 8 = 7) (p q : Fin 1024) (R : Fin 8192) (C : Fin 4096)
    (hR : R.val = 1024 * (t.val / 32) + p.val) (hC : C.val = 1024 * ((t.val / 8) % 4) + q.val) :
    (outsAt1 V c t.val t.isLt).1 (ix2 p q) = Gs (Xm V c) (Am V c) (Bm V c) (Wm V c) (sOf V c) (ix2 R C) := by
  obtain ⟨a0, a1⟩ := acc_inv V c t.val t.isLt
  refine (congrFun (step_out V c t h7) (ix2 p q)).trans ?_
  refine (PayAt.fin_pay6_at (bblk V c t) (outsAt1 V c t.val t.isLt).2.2 (sblk V c t) (outsAt1 V c t.val t.isLt).2.1 p q).trans ?_
  rw [sblk_at V c t (ix2 (0 : Fin 1) q) C hC, a0 p q R C hR hC, show 512 * (t.val % 8) + 512 = 4096 from by omega, psum_full]
  have hl : ∑ r : Fin 16, (outsAt1 V c t.val t.isLt).2.2 (ix2 p r) * bblk V c t (ix2 q r)
      = loraDot (Xm V c) (Am V c) (Bm V c) R C := by
    unfold loraDot lowDot
    refine Finset.sum_congr rfl fun r _ => ?_
    rw [a1 p r R hR, show 512 * (t.val % 8) + 512 = 4096 from by omega, psum_full, bblk_at V c t (ix2 q r) C r hC rfl]
  rw [hl]
  rfl

/-! ## The write-back, the cover, the final array -/

theorem flushed5_eq (t : Fin cfg1.N) (hf : (cfg1.win 5).flush t = true) :
    (dat1 (F := Ideal) V c).flushed 5 t
      = ((cfg1.win 5).blk t).view.read (Elt Ideal) (Gs (Xm V c) (Am V c) (Bm V c) (Wm V c) (sOf V c)) := by
  have h7 : t.val % 8 = 7 := (flush1_5 t).mp hf
  obtain ⟨-, -, -, -, -, -, -, -, -, -, e0, e1⟩ := idx1 t
  show (cfg1.win 5).cut (grid1.coords t) ((dat1 V c).after 5 t) = _
  rw [after1_5]
  funext y
  have hN : t.val < 256 := lt_of_lt_of_eq t.isLt (show cfg1.N = 256 from N_1)
  have hp : (y 0).val < 1024 := (y 0).isLt
  have hq : (y 1).val < 1024 := (y 1).isLt
  have hy : y = ix2 (⟨(y 0).val, hp⟩ : Fin 1024) (⟨(y 1).val, hq⟩ : Fin 1024) :=
    funext fun a => Fin.ext (by match a with | ⟨0, _⟩ => rfl | ⟨1, _⟩ => rfl)
  show (outsAt1 V c t.val t.isLt).1 y = Gs (Xm V c) (Am V c) (Bm V c) (Wm V c) (sOf V c) (((cfg1.win 5).blk t).view.emb y)
  have hemb : ((cfg1.win 5).blk t).view.emb y
      = ix2 (⟨1024 * (t.val / 32) + (y 0).val, by omega⟩ : Fin 8192) (⟨1024 * ((t.val / 8) % 4) + (y 1).val, by omega⟩ : Fin 4096) := by
    funext a; apply Fin.ext
    match a with
    | ⟨0, _⟩ => show win1_5.index t (0 : Fin 2) * 1024 + 1 * (y 0).val = 1024 * (t.val / 32) + (y 0).val; rw [e0]; omega
    | ⟨1, _⟩ => show win1_5.index t (1 : Fin 2) * 1024 + 1 * (y 1).val = 1024 * ((t.val / 8) % 4) + (y 1).val; rw [e1]; omega
  rw [hemb]
  refine (congrArg (outsAt1 V c t.val t.isLt).1 hy).trans ?_
  exact out_at V c t h7 ⟨(y 0).val, hp⟩ ⟨(y 1).val, hq⟩ _ _ rfl rfl

theorem mem_blk5 (t : Fin cfg1.N) (i : S8192x4096.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v2).slice (win1_5.rect t)).set ↔ _
  rw [View.set_slice_whole, Rect.mem_set_unit]
  exact Iff.rfl

theorem cover5 (i : S8192x4096.Idx) :
    ∃ t : Fin cfg1.N, (cfg1.win 5).flush t = true ∧ i ∈ ((cfg1.win 5).blk t).view.set := by
  have hi0 : (i 0).val < 8192 := (i 0).isLt
  have hi1 : (i 1).val < 4096 := (i 1).isLt
  have hN : cfg1.N = 256 := N_1
  let t : Fin cfg1.N := ⟨((i 0).val / 1024 * 4 + (i 1).val / 1024) * 8 + 7, by rw [hN]; omega⟩
  have ht : t.val = ((i 0).val / 1024 * 4 + (i 1).val / 1024) * 8 + 7 := rfl
  obtain ⟨-, -, -, -, -, -, -, -, -, -, e0, e1⟩ := idx1 t
  refine ⟨t, (flush1_5 t).mpr (by rw [ht]; omega), ?_⟩
  rw [mem_blk5]
  intro a
  match a with
  | ⟨0, _⟩ => show win1_5.index t (0 : Fin 2) * 1024 ≤ (i 0).val ∧ (i 0).val < win1_5.index t (0 : Fin 2) * 1024 + 1024; rw [e0, ht]; omega
  | ⟨1, _⟩ => show win1_5.index t (1 : Fin 2) * 1024 ≤ (i 1).val ∧ (i 1).val < win1_5.index t (1 : Fin 2) * 1024 + 1024; rw [e1, ht]; omega

/-- THE RESULT ARRAY after the region: the specification's function of the arrays the region found, the scale of
    each column read from the scale row. -/
theorem main_final :
    (dat1 (F := Ideal) V c).arrAt 5 cfg1.N = Gs (Xm V c) (Am V c) (Bm V c) (Wm V c) (sOf V c) :=
  (dat1 (F := Ideal) V c).arrAt_eq_of_cover 5 _ (flushed5_eq V c) cover5

end Value

end Cert.Dora.ValMain

end
-- ==== Proof.Final.lean ====
/-
  The idealized kernel's run ends at the specification. Reading back from the end: the result array is the second
  region's output, which is the specification's function of the arrays that region found and of the scale row; those
  arrays are the arguments as launched (the host reshape writes only its own result, and the first region's
  write-backs touch only the scale row); the scale row is the first region's output, the scale of each column computed
  from the arguments and the magnitude column; and the magnitude column is the magnitude vector reshaped, so its entry
  (j, 0) is the vector's entry j.
-/
import proofs.«152894_j41712722379292_1_alg».proof.Proof.KI.Run
import proofs.«152894_j41712722379292_1_alg».proof.Proof.ValNorm
import proofs.«152894_j41712722379292_1_alg».proof.Proof.ValMain
import proofs.«152894_j41712722379292_1_alg».proof.Proof.PayAt
import proofs.«152894_j41712722379292_1_alg».proof.Proof.Spec
import Idealize.ShloMosaic.Lib.StableHlo.Run
import Idealize.ShloMosaic.Lib.Pipeline.Value
import Idealize.ShloMosaic.Lib.ValueIdx

set_option maxRecDepth 16384

noncomputable section

open scoped BigOperators

namespace Cert.Dora.Final

open Idealize.ShloMosaic Idealize.ShloMosaic.TcCoe Idealize.SL.Sem Idealize.ShloMosaic.StableHlo
open Idealize.ShloMosaic.Pipeline (Dat)
open Idealize.ShloMosaic.ValueIdx Cert.LibRowDot Cert.Dora
open Cert.KernelIdeal Cert.KernelIdeal.Gen Cert.KernelIdeal.Hand

variable (m : (ℓ : Loc nD τ sig) → Buf (Elt Ideal) ℓ) (ρ : Dev nD → PrngReg) (c : Dev nD)

/-! ## After the reshape -/

theorem Vr1_arg1 : Vr1 m c main_arg1 = m ((c : Thread nD τ).loc main_arg1) := V1_of m c main_arg1 (by decide)
theorem Vr1_arg2 : Vr1 m c main_arg2 = m ((c : Thread nD τ).loc main_arg2) := V1_of m c main_arg2 (by decide)
theorem Vr1_arg3 : Vr1 m c main_arg3 = m ((c : Thread nD τ).loc main_arg3) := V1_of m c main_arg3 (by decide)

/-- The magnitude column is the magnitude vector reshaped. -/
theorem Vr1_v0 : (Vr1 m c main_v0 : S4096x1.Idx → EReal)
    = shapeCast S4096x1 (m ((c : Thread nD τ).loc main_arg4) : S4096.Idx → EReal) shapeCasts_S4096_S4096x1 := by
  dsimp only [Vr1, Wl1, Wl0, hostOps0]
  after_results
  rfl

theorem magcol_at (j : Fin 4096) :
    (Vr1 m c main_v0 : S4096x1.Idx → EReal) (ix2 j (0 : Fin 1)) = (m ((c : Thread nD τ).loc main_arg4) : S4096.Idx → EReal) (ix1 j) := by
  rw [Vr1_v0]
  exact PayAt.shapeCast_a_a1_apply _ _ j 0

/-! ## After the first region -/

theorem Vr2_arg0 : Vr2 m c main_arg0 = m ((c : Thread nD τ).loc main_arg0) :=
  (Wl2_of_ne m c main_arg0 (by decide)).trans (V1_of m c main_arg0 (by decide))
theorem Vr2_arg1 : Vr2 m c main_arg1 = m ((c : Thread nD τ).loc main_arg1) :=
  ((Wl2_arr m c 2).trans (((dat0 (Vr1 m) c).arrAt_in 2 rfl _).trans (A_eq0 (Vr1 m) c 2))).trans (Vr1_arg1 m c)
theorem Vr2_arg2 : Vr2 m c main_arg2 = m ((c : Thread nD τ).loc main_arg2) :=
  ((Wl2_arr m c 1).trans (((dat0 (Vr1 m) c).arrAt_in 1 rfl _).trans (A_eq0 (Vr1 m) c 1))).trans (Vr1_arg2 m c)
theorem Vr2_arg3 : Vr2 m c main_arg3 = m ((c : Thread nD τ).loc main_arg3) :=
  ((Wl2_arr m c 0).trans (((dat0 (Vr1 m) c).arrAt_in 0 rfl _).trans (A_eq0 (Vr1 m) c 0))).trans (Vr1_arg3 m c)

/-- The scale row the second region is handed: column j's scale, from the arguments. -/
theorem scale_row (j : Fin 4096) :
    ValMain.sOf (Vr2 m) c j
      = scale (m ((c : Thread nD τ).loc main_arg1)) (m ((c : Thread nD τ).loc main_arg2)) (m ((c : Thread nD τ).loc main_arg3))
          (m ((c : Thread nD τ).loc main_arg4)) j := by
  show (Vr2 m c main_v1 : S1x4096.Idx → EReal) (ix2 (0 : Fin 1) j) = _
  rw [show Vr2 m c main_v1 = (dat0 (F := Ideal) (Vr1 m) c).arrAt 4 cfg0.N from Wl2_arr m c 4, ValNorm.norm_final (Vr1 m) c]
  show scaleCol (Vr1 m c main_arg1) (Vr1 m c main_arg2) (Vr1 m c main_arg3) (Vr1 m c main_v0) j = _
  rw [Vr1_arg1, Vr1_arg2, Vr1_arg3]
  exact scaleCol_of_col _ _ _ _ _ (magcol_at m c) j

/-- THE RESULT ARRAY after the run is the specification's function of the arguments as launched. -/
theorem final :
    (dat1 (F := Ideal) (Vr2 m) c).arrAt 5 cfg1.N
      = G (m ((c : Thread nD τ).loc main_arg0)) (m ((c : Thread nD τ).loc main_arg1)) (m ((c : Thread nD τ).loc main_arg2))
          (m ((c : Thread nD τ).loc main_arg3)) (m ((c : Thread nD τ).loc main_arg4)) := by
  rw [ValMain.main_final (Vr2 m) c, G_eq_Gs]
  show Gs (Vr2 m c main_arg0) (Vr2 m c main_arg1) (Vr2 m c main_arg2) (Vr2 m c main_arg3) (ValMain.sOf (Vr2 m) c) = _
  rw [Vr2_arg0, Vr2_arg1, Vr2_arg2, Vr2_arg3, show ValMain.sOf (Vr2 m) c = scale (m ((c : Thread nD τ).loc main_arg1)) (m ((c : Thread nD τ).loc main_arg2)) (m ((c : Thread nD τ).loc main_arg3)) (m ((c : Thread nD τ).loc main_arg4)) from funext (scale_row m c)]

/-- The idealized kernel's run: the result at the specification, the arguments unchanged. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v2)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := Ideal)) _ _).mono (fun r h c => ⟨(h c).1.trans (final m c), (h c).2⟩)
    (Cert.KernelIdeal.Hand.run_main (F := Ideal) m ρ)

end Cert.Dora.Final

end
-- ==== Proof.RefIsG.lean ====
/-
  The reference computes G. With x : [8192, 4096], A : [16, 4096], B : [4096, 16], W : [4096, 4096] and
  mag : [4096], the reference forms, one operation at a time, the combined weight C = W + 2 · (B·A), the
  sum of squares of each of its rows, the scale s(j) = mag(j) / sqrt(∑ i, C(j, i)²) laid out as a row
  vector, the products x · Wᵀ, x · Aᵀ and (x · Aᵀ) · Bᵀ through explicit transposes, and at last
      (s(j) − 1) · (x · Wᵀ)(t, j) + (s(j) · ((x · Aᵀ) · Bᵀ)(t, j)) · 2.
  Each stage is read at an index whose coordinates are named: a transposed operand read at (k, j) is the
  operand at (j, k), a broadcast row vector read at (t, j) is the vector at j, and the sum with a zero
  initial value is the plain sum. Stage by stage these are the specification's comb, scale, baseDot,
  lowDot and loraDot, and the last stage is G. The run of the reference then ends with its result at G of
  the arguments it was launched with, the arguments unchanged.
-/
import proofs.«152894_j41712722379292_1_alg».proof.Proof.Gen.ReferenceIdeal.Read
import proofs.«152894_j41712722379292_1_alg».proof.Proof.Spec

noncomputable section

open scoped BigOperators

namespace Cert.Dora.Ref

open Idealize.ShloMosaic Idealize.ShloMosaic.TcCoe Idealize.SL.Sem Idealize.ShloMosaic.StableHlo
open Idealize.ShloMosaic.ValueIdx Cert.LibRowDot Cert.ReferenceIdeal Cert.ReferenceIdeal.Read

/-- The combined weight: W + 2 · (B·A) at (j, i). -/
theorem comb_eq (x1 : (⟨S16x4096, .f32⟩ : BufTy).Contents (Elt Ideal)) (x2 : (⟨S4096x16, .f32⟩ : BufTy).Contents (Elt Ideal))
    (x3 : (⟨S4096x4096, .f32⟩ : BufTy).Contents (Elt Ideal)) (j i : Fin 4096) :
    val_main_v3 (F := Ideal) x1 x2 x3 (ix2 j i) = comb x1 x2 x3 j i := by
  rw [val_main_v3_apply, val_main_v2_apply, val_main_v1_apply, val_main_cst_apply, val_main_v0_apply]
  have el : ∀ k : Fin 16, lidx_main_v0 (ix2 j i) k = ix2 j k := fun k =>
    funext fun a => Fin.ext (by match a with | ⟨0, _⟩ => rfl | ⟨1, _⟩ => rfl)
  have er : ∀ k : Fin 16, ridx_main_v0 (ix2 j i) k = ix2 k i := fun k =>
    funext fun a => Fin.ext (by match a with | ⟨0, _⟩ => rfl | ⟨1, _⟩ => rfl)
  simp only [el, er]
  rfl

/-- The sum of squares of row j of the combined weight. -/
theorem sumsq_eq (x1 : (⟨S16x4096, .f32⟩ : BufTy).Contents (Elt Ideal)) (x2 : (⟨S4096x16, .f32⟩ : BufTy).Contents (Elt Ideal))
    (x3 : (⟨S4096x4096, .f32⟩ : BufTy).Contents (Elt Ideal)) (j : Fin 4096) :
    val_main_v5 (F := Ideal) x1 x2 x3 (ix1 j) = ∑ i : Fin 4096, comb x1 x2 x3 j i * comb x1 x2 x3 j i := by
  rw [val_main_v5_apply, val_main_cst_0_apply, Ideal.ofBits_def, Ideal.ofBits_zero_f32, zero_add]
  refine Finset.sum_congr rfl fun k _ => ?_
  have e : idx_main_v5 (ix1 j) k = ix2 j k :=
    funext fun a => Fin.ext (by match a with | ⟨0, _⟩ => rfl | ⟨1, _⟩ => rfl)
  rw [val_main_v4_apply, e, comb_eq]
  rfl

/-- The scale of output column j. -/
theorem scale_eq (x1 : (⟨S16x4096, .f32⟩ : BufTy).Contents (Elt Ideal)) (x2 : (⟨S4096x16, .f32⟩ : BufTy).Contents (Elt Ideal))
    (x3 : (⟨S4096x4096, .f32⟩ : BufTy).Contents (Elt Ideal)) (x4 : (⟨S4096, .f32⟩ : BufTy).Contents (Elt Ideal)) (j : Fin 4096) :
    val_main_v7 (F := Ideal) x1 x2 x3 x4 (ix1 j) = scale x1 x2 x3 x4 j := by
  rw [val_main_v7_apply, val_main_v6_apply, sumsq_eq]
  rfl

/-- The scale laid out as a row vector [1, 4096]. -/
theorem scale_row_eq (x1 : (⟨S16x4096, .f32⟩ : BufTy).Contents (Elt Ideal)) (x2 : (⟨S4096x16, .f32⟩ : BufTy).Contents (Elt Ideal))
    (x3 : (⟨S4096x4096, .f32⟩ : BufTy).Contents (Elt Ideal)) (x4 : (⟨S4096, .f32⟩ : BufTy).Contents (Elt Ideal)) (z : Fin 1) (j : Fin 4096) :
    val_main_v8 (F := Ideal) x1 x2 x3 x4 (ix2 z j) = scale x1 x2 x3 x4 j := by
  have e : idx_main_v8 (ix2 z j) = ix1 j :=
    funext fun a => Fin.ext (by match a with | ⟨0, _⟩ => rfl)
  rw [val_main_v8_apply, e, scale_eq]

/-- x · Wᵀ at (t, j). -/
theorem base_eq (x0 : (⟨S8192x4096, .f32⟩ : BufTy).Contents (Elt Ideal)) (x3 : (⟨S4096x4096, .f32⟩ : BufTy).Contents (Elt Ideal))
    (t : Fin 8192) (j : Fin 4096) :
    val_main_v14 (F := Ideal) x0 x3 (ix2 t j) = baseDot x0 x3 t j := by
  rw [val_main_v14_apply]
  refine Finset.sum_congr rfl fun k _ => ?_
  have el : lidx_main_v14 (ix2 t j) k = ix2 t k :=
    funext fun a => Fin.ext (by match a with | ⟨0, _⟩ => rfl | ⟨1, _⟩ => rfl)
  have er : idx_main_v13 (ridx_main_v14 (ix2 t j) k) = ix2 j k :=
    funext fun a => Fin.ext (by match a with | ⟨0, _⟩ => rfl | ⟨1, _⟩ => rfl)
  rw [val_main_v13_apply, el, er]

/-- x · Aᵀ at (t, r). -/
theorem low_eq (x0 : (⟨S8192x4096, .f32⟩ : BufTy).Contents (Elt Ideal)) (x1 : (⟨S16x4096, .f32⟩ : BufTy).Contents (Elt Ideal))
    (t : Fin 8192) (r : Fin 16) :
    val_main_v10 (F := Ideal) x0 x1 (ix2 t r) = lowDot x0 x1 t r := by
  rw [val_main_v10_apply]
  refine Finset.sum_congr rfl fun k _ => ?_
  have el : lidx_main_v10 (ix2 t r) k = ix2 t k :=
    funext fun a => Fin.ext (by match a with | ⟨0, _⟩ => rfl | ⟨1, _⟩ => rfl)
  have er : idx_main_v9 (ridx_main_v10 (ix2 t r) k) = ix2 r k :=
    funext fun a => Fin.ext (by match a with | ⟨0, _⟩ => rfl | ⟨1, _⟩ => rfl)
  rw [val_main_v9_apply, el, er]

/-- (x · Aᵀ) · Bᵀ at (t, j). -/
theorem lora_eq (x0 : (⟨S8192x4096, .f32⟩ : BufTy).Contents (Elt Ideal)) (x1 : (⟨S16x4096, .f32⟩ : BufTy).Contents (Elt Ideal))
    (x2 : (⟨S4096x16, .f32⟩ : BufTy).Contents (Elt Ideal)) (t : Fin 8192) (j : Fin 4096) :
    val_main_v12 (F := Ideal) x0 x1 x2 (ix2 t j) = loraDot x0 x1 x2 t j := by
  rw [val_main_v12_apply]
  refine Finset.sum_congr rfl fun r _ => ?_
  have el : lidx_main_v12 (ix2 t j) r = ix2 t r :=
    funext fun a => Fin.ext (by match a with | ⟨0, _⟩ => rfl | ⟨1, _⟩ => rfl)
  have er : idx_main_v11 (ridx_main_v12 (ix2 t j) r) = ix2 j r :=
    funext fun a => Fin.ext (by match a with | ⟨0, _⟩ => rfl | ⟨1, _⟩ => rfl)
  rw [val_main_v11_apply, el, er, low_eq]

/-- THE REFERENCE COMPUTES G. -/
theorem ref_is_G (x0 : (⟨S8192x4096, .f32⟩ : BufTy).Contents (Elt Ideal)) (x1 : (⟨S16x4096, .f32⟩ : BufTy).Contents (Elt Ideal)) (x2 : (⟨S4096x16, .f32⟩ : BufTy).Contents (Elt Ideal)) (x3 : (⟨S4096x4096, .f32⟩ : BufTy).Contents (Elt Ideal)) (x4 : (⟨S4096, .f32⟩ : BufTy).Contents (Elt Ideal)) :
    Cert.ReferenceIdeal.Read.val_main_v23 (F := Ideal) x0 x1 x2 x3 x4 = Cert.Dora.G x0 x1 x2 x3 x4 := by
  funext i
  obtain ⟨t, j, rfl⟩ : ∃ t j, i = ix2 t j := ⟨i 0, i 1, eq_ix2 i⟩
  have e17 : idx_main_v17 (ix2 t j) = ix2 (0 : Fin 1) j :=
    funext fun a => Fin.ext (by match a with | ⟨0, _⟩ => rfl | ⟨1, _⟩ => rfl)
  have e19 : idx_main_v19 (ix2 t j) = ix2 (0 : Fin 1) j :=
    funext fun a => Fin.ext (by match a with | ⟨0, _⟩ => rfl | ⟨1, _⟩ => rfl)
  rw [val_main_v23_apply, val_main_v18_apply, val_main_v22_apply, val_main_v20_apply, val_main_v21_apply,
    val_main_cst_2_apply, val_main_v17_apply, e17, val_main_v16_apply, val_main_v15_apply, val_main_cst_1_apply,
    val_main_v19_apply, e19, scale_row_eq, base_eq, lora_eq]
  rfl

theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v23) = Cert.Dora.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  refine (θ_run (Cert.ReferenceIdeal.defs (F := Ideal)) _ _).mono (fun _ h c => ⟨(h c).1.trans ?_, (h c).2⟩)
    (Cert.ReferenceIdeal.Value.run (F := Ideal) m' ρ')
  rw [Read.val_main_v23_eq, ref_is_G]

end Cert.Dora.Ref

end
-- ==== Proof.lean ====
/-
  The certificate. The kernel is a two-region program: a weight-norm kernel that computes, for each of the 4096
  output columns j, the scale s(j) = mag(j) / sqrt(∑ i, (W(j, i) + 2 · (B·A)(j, i))²), and a fused matrix-product
  kernel that accumulates x · Wᵀ and x · Aᵀ over eight blocks of the contraction and then stores
  (s(j) − 1) · (x · Wᵀ)(t, j) + (s(j) · ((x · Aᵀ) · Bᵀ)(t, j)) · 2. The reference computes the same expression with
  whole-array operations. On the extended reals the two agree with no side condition: the only differences are a
  change of float format (the identity there), the grouping of the contraction's sum into blocks (addition is
  commutative and associative), and a matrix-unit product against a host product (one sum).
  The frames: each kernel region's body is run symbolically at every grid point, the second region's two
  accumulators carried in the region's invariant; the regions and the host reshape are then composed from the
  launch. The word-level kernel's frame is the same text read at the word-level instance. The reference's frame is
  its run with the result dropped. The ideal pass rewrote nothing, so there is nothing to preserve.
-/
import proofs.«152894_j41712722379292_1_alg».proof.Defs
import proofs.«152894_j41712722379292_1_alg».proof.Proof.Gen.Kernel
import proofs.«152894_j41712722379292_1_alg».proof.Proof.Gen.KernelIdeal
import proofs.«152894_j41712722379292_1_alg».proof.Proof.Gen.ReferenceIdeal
import proofs.«152894_j41712722379292_1_alg».proof.Proof.Gen.Pre_finite_inputs
import proofs.«152894_j41712722379292_1_alg».proof.Proof.Gen.ReferenceIdeal.Run
import proofs.«152894_j41712722379292_1_alg».proof.Proof.K.Run
import proofs.«152894_j41712722379292_1_alg».proof.Proof.KI.Run
import proofs.«152894_j41712722379292_1_alg».proof.Proof.Final
import proofs.«152894_j41712722379292_1_alg».proof.Proof.RefIsG
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the specification's function of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Dora.Final.run m ρ, ?_⟩
  refine (θ_run Cert.ReferenceIdeal.defs _ _).mono (fun _ h c => ⟨(h c).1.trans ?_, (h c).2⟩) (Cert.Dora.Ref.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
